-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x4096 : Shape := ⟨2, ![8192, 4096]⟩
abbrev S768x4096 : Shape := ⟨2, ![768, 4096]⟩
abbrev S4096 : Shape := ⟨1, ![4096]⟩
abbrev S768x512 : Shape := ⟨2, ![768, 512]⟩
abbrev S512 : Shape := ⟨1, ![512]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S768x4096 : S_.BroadcastsInDim S768x4096 (![] : Fin 0 → Fin S768x4096.rank)
  reducesTo_S768x4096_S_d0_1 : S768x4096.ReducesTo [0, 1] S_
  bcast_S_S4096 : S_.BroadcastsInDim S4096 (![] : Fin 0 → Fin S4096.rank)
  reducesTo_S4096_S_d0 : S4096.ReducesTo [0] S_
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S768x4096 .f32) (main_arg5 : FVec F S4096 .f32) (main_arg6 : FVec F S768x512 .f32) (main_arg7 : FVec F S512 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S768x4096 .f32 := Host.absf main_arg4
  let main_cst_6 : FVec F S_ .f32 := constant S_ .f32 0x7F800000#32
  let main_v20 : FVec F S768x4096 .f32 := broadcastInDim S768x4096 ![] bcast_S_S768x4096 main_cst_6
  let main_v21 : IVec S768x4096 1 := cmpf .olt main_v19 main_v20
  let main_c_7 : IVec S_ 1 := constantI S_ 1 1#1
  let main_v22 : IVec S_ 1 := (fun x v => Host.reduce IntOp.andi x v reducesTo_S768x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S768x512 .f32 := Host.absf main_arg6
  let main_cst_10 : FVec F S_ .f32 := constant S_ .f32 0x7F800000#32
  let main_v30 : FVec F S768x512 .f32 := broadcastInDim S768x512 ![] bcast_S_S768x512 main_cst_10
  let main_v31 : IVec S768x512 1 := cmpf .olt main_v29 main_v30
  let main_c_11 : IVec S_ 1 := constantI S_ 1 1#1
  let main_v32 : IVec S_ 1 := (fun x v => Host.reduce IntOp.andi x v reducesTo_S768x512_S_d0_1 h_S_) main_v31 main_c_11
  let main_v33 : IVec S_ 1 := andi main_v28 main_v32
  fn_part2 (F := F) main_arg7 main_v33

def fn {F : FTy → Type} [FloatOps F] (main_arg0 : FVec F S8192x256 .f32) (main_arg1 : FVec F S8192x4096 .f32) (main_arg2 : FVec F S768x4096 .f32) (main_arg3 : FVec F S4096 .f32) (main_arg4 : FVec F S768x4096 .f32) (main_arg5 : FVec F S4096 .f32) (main_arg6 : FVec F S768x512 .f32) (main_arg7 : FVec F S512 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S768x4096 .f32 := Host.absf main_arg2
  let main_cst_2 : FVec F S_ .f32 := constant S_ .f32 0x7F800000#32
  let main_v10 : FVec F S768x4096 .f32 := broadcastInDim S768x4096 ![] bcast_S_S768x4096 main_cst_2
  let main_v11 : IVec S768x4096 1 := cmpf .olt main_v9 main_v10
  let main_c_3 : IVec S_ 1 := constantI S_ 1 1#1
  let main_v12 : IVec S_ 1 := (fun x v => Host.reduce IntOp.andi x v reducesTo_S768x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S8192x256 : Shape := ⟨2, ![8192, 256]⟩
abbrev S8192x4096 : Shape := ⟨2, ![8192, 4096]⟩
abbrev S768x4096 : Shape := ⟨2, ![768, 4096]⟩
abbrev S4096 : Shape := ⟨1, ![4096]⟩
abbrev S768x512 : Shape := ⟨2, ![768, 512]⟩
abbrev S512 : Shape := ⟨1, ![512]⟩
abbrev S8 : Shape := ⟨1, ![8]⟩
abbrev S8192x512x8 : Shape := ⟨3, ![8192, 512, 8]⟩
abbrev S1x1x8 : Shape := ⟨3, ![1, 1, 8]⟩
abbrev S1x4096 : Shape := ⟨2, ![1, 4096]⟩
abbrev S1x512 : Shape := ⟨2, ![1, 512]⟩
abbrev S8192x512 : Shape := ⟨2, ![8192, 512]⟩
abbrev S128x256 : Shape := ⟨2, ![128, 256]⟩
abbrev S128x512x8 : Shape := ⟨3, ![128, 512, 8]⟩
abbrev S128x512 : Shape := ⟨2, ![128, 512]⟩
abbrev S128x768 : Shape := ⟨2, ![128, 768]⟩
abbrev S128x4096 : Shape := ⟨2, ![128, 4096]⟩
abbrev S128x512x1 : Shape := ⟨3, ![128, 512, 1]⟩

abbrev nBuf : Space → Nat
  | .hbm => 22
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S768x4096, .f32⟩
  | .hbm, ⟨3, _⟩ => ⟨S4096, .f32⟩
  | .hbm, ⟨4, _⟩ => ⟨S768x4096, .f32⟩
  | .hbm, ⟨5, _⟩ => ⟨S4096, .f32⟩
  | .hbm, ⟨6, _⟩ => ⟨S768x512, .f32⟩
  | .hbm, ⟨7, _⟩ => ⟨S512, .f32⟩
  | .hbm, ⟨8, _⟩ => ⟨S8, .f32⟩
  | .hbm, ⟨9, _⟩ => ⟨S8, .f32⟩
  | .hbm, ⟨10, _⟩ => ⟨S8192x512x8, .f32⟩
  | .hbm, ⟨11, _⟩ => ⟨S1x1x8, .f32⟩
  | .hbm, ⟨12, _⟩ => ⟨S1x1x8, .f32⟩
  | .hbm, ⟨13, _⟩ => ⟨S1x4096, .f32⟩
  | .hbm, ⟨14, _⟩ => ⟨S1x4096, .f32⟩
  | .hbm, ⟨15, _⟩ => ⟨S1x512, .f32⟩
  | .hbm, ⟨16, _⟩ => ⟨S768x4096, .bf16⟩
  | .hbm, ⟨17, _⟩ => ⟨S768x4096, .bf16⟩
  | .hbm, ⟨18, _⟩ => ⟨S768x512, .bf16⟩
  | .hbm, ⟨19, _⟩ => ⟨S8192x512, .f32⟩
  | .hbm, ⟨20, _⟩ => ⟨S8192x512x8, .f32⟩
  | .hbm, ⟨21, _⟩ => ⟨S8192x4096, .f32⟩
  | .local _ .vmem, ⟨0, _⟩ => ⟨S128x256, .f32⟩
  | .local _ .vmem, ⟨1, _⟩ => ⟨S128x256, .f32⟩
  | .local _ .vmem, ⟨2, _⟩ => ⟨S128x512x8, .f32⟩
  | .local _ .vmem, ⟨3, _⟩ => ⟨S128x512x8, .f32⟩
  | .local _ .vmem, ⟨4, _⟩ => ⟨S768x4096, .bf16⟩
  | .local _ .vmem, ⟨5, _⟩ => ⟨S1x4096, .f32⟩
  | .local _ .vmem, ⟨6, _⟩ => ⟨S768x4096, .bf16⟩
  | .local _ .vmem, ⟨7, _⟩ => ⟨S1x4096, .f32⟩
  | .local _ .vmem, ⟨8, _⟩ => ⟨S768x512, .bf16⟩
  | .local _ .vmem, ⟨9, _⟩ => ⟨S1x512, .f32⟩
  | .local _ .vmem, ⟨10, _⟩ => ⟨S1x1x8, .f32⟩
  | .local _ .vmem, ⟨11, _⟩ => ⟨S1x1x8, .f32⟩
  | .local _ .vmem, ⟨12, _⟩ => ⟨S128x512, .f32⟩
  | .local _ .vmem, ⟨13, _⟩ => ⟨S128x512, .f32⟩
  | .local _ .vmem, ⟨14, _⟩ => ⟨S128x512x8, .f32⟩
  | .local _ .vmem, ⟨15, _⟩ => ⟨S128x512x8, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x4096_S8192x512x8 : S8192x4096.ShapeCasts S8192x512x8
  shapeCasts_S8_S1x1x8 : S8.ShapeCasts S1x1x8
  shapeCasts_S4096_S1x4096 : S4096.ShapeCasts S1x4096
  shapeCasts_S512_S1x512 : S512.ShapeCasts S1x512
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S128x512x8_S128x512x8_0_0_0 : ∀ a, (![0, 0, 0] : Fin 3 → Nat) a + S128x512x8.size a ≤ S128x512x8.size a
  h_S128x512x8 : 0 < S128x512x8.numel
  shapeCasts_S128x512x8_S128x512x8 : S128x512x8.ShapeCasts S128x512x8
  reduces_S128x512x8_S128x512 : S128x512x8.Reduces [2] S128x512
  concatenates_S128x256_S128x512_S128x768_d1 : Shape.Concatenates [S128x256, S128x512] S128x768 1
  inb_S768x4096_S768x4096_0_0 : ∀ a, (![0, 0] : Fin 2 → Nat) a + S768x4096.size a ≤ S768x4096.size a
  h_S768x4096 : 0 < S768x4096.numel
  shapeCasts_S768x4096_S768x4096 : S768x4096.ShapeCasts S768x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S128x4096_S128x512x8 : S128x4096.ShapeCasts S128x512x8
  inb_S1x1x8_S1x1x8_0_0_0 : ∀ a, (![0, 0, 0] : Fin 3 → Nat) a + S1x1x8.size a ≤ S1x1x8.size a
  h_S1x1x8 : 0 < S1x1x8.numel
  shapeCasts_S1x1x8_S1x1x8 : S1x1x8.ShapeCasts S1x1x8
  broadcasts_S1x1x8_S128x512x8 : S1x1x8.Broadcasts S128x512x8
  shapeCasts_S128x512_S128x512x1 : S128x512.ShapeCasts S128x512x1
  broadcasts_S128x512x1_S128x512x8 : S128x512x1.Broadcasts S128x512x8
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S8192x512x8_S8192x4096 : S8192x512x8.ShapeCasts S8192x4096
  dot_S128x768_S768x4096_S128x4096_1_0_0_1_n_n_wf : DotDims.WF S128x768 S768x4096 S128x4096 [1] [0] [0] [1] [] []
  dot_S128x768_S768x512_S128x512_1_0_0_1_n_n_wf : DotDims.WF S128x768 S768x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .f32 = 32 ∨ (Rect.block (s := S8192x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512x8.size a ≤ S8192x512x8.size a
  hwx0_1 : ∀ i : grid0.Coords, EltTy.bits .f32 = 32 ∨ (Rect.block (s := S8192x512x8) S128x512x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x4096.size a ≤ S768x4096.size a
  hwx0_2 : ∀ i : grid0.Coords, EltTy.bits .bf16 = 32 ∨ (Rect.block (s := S768x4096) S768x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x4096.size a ≤ S768x4096.size a
  hwx0_4 : ∀ i : grid0.Coords, EltTy.bits .bf16 = 32 ∨ (Rect.block (s := S768x4096) S768x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x512.size a ≤ S768x512.size a
  hwx0_6 : ∀ i : grid0.Coords, EltTy.bits .bf16 = 32 ∨ (Rect.block (s := S768x512) S768x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1x8.size a ≤ S1x1x8.size a
  hwx0_8 : ∀ i : grid0.Coords, EltTy.bits .f32 = 32 ∨ (Rect.block (s := S1x1x8) S1x1x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1x8.size a ≤ S1x1x8.size a
  hwx0_9 : ∀ i : grid0.Coords, EltTy.bits .f32 = 32 ∨ (Rect.block (s := S1x1x8) S1x1x8.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S8192x512.size a
  hwx0_10 : ∀ i : grid0.Coords, EltTy.bits .f32 = 32 ∨ (Rect.block (s := S8192x512) S128x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x512x8.size a ≤ S8192x512x8.size a
  hwx0_11 : ∀ i : grid0.Coords, EltTy.bits .f32 = 32 ∨ (Rect.block (s := S8192x512x8) S128x512x8.size (cc0_transform_11 i) (hinb0_11 i)).WholeWords (EltTy.packing .f32)

variable [Facts₀]

def dot_S128x768_S768x4096_S128x4096_1_0_0_1_n_n : DotDims S128x768 S768x4096 S128x4096 where
  lhsContracting := [1]
  rhsContracting := [0]
  lhsNonContracting := [0]
  rhsNonContracting := [1]
  lhsBatch := []
  rhsBatch := []
  wf := dot_S128x768_S768x4096_S128x4096_1_0_0_1_n_n_wf
def dot_S128x768_S768x512_S128x512_1_0_0_1_n_n : DotDims S128x768 S768x512 S128x512 where
  lhsContracting := [1]
  rhsContracting := [0]
  lhsNonContracting := [0]
  rhsNonContracting := [1]
  lhsBatch := []
  rhsBatch := []
  wf := dot_S128x768_S768x512_S128x512_1_0_0_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S768x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S768x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S768x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9_0) S128x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_1) S128x512x8.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x4096 : Shape := ⟨2, ![8192, 4096]⟩
abbrev S768x4096 : Shape := ⟨2, ![768, 4096]⟩
abbrev S4096 : Shape := ⟨1, ![4096]⟩
abbrev S768x512 : Shape := ⟨2, ![768, 512]⟩
abbrev S512 : Shape := ⟨1, ![512]⟩
abbrev S8 : Shape := ⟨1, ![8]⟩
abbrev S8192x512x8 : Shape := ⟨3, ![8192, 512, 8]⟩
abbrev S_ : Shape := ⟨0, ![]⟩
abbrev S8192x512 : Shape := ⟨2, ![8192, 512]⟩
abbrev S8192x768 : Shape := ⟨2, ![8192, 768]⟩
abbrev S1x4096 : Shape := ⟨2, ![1, 4096]⟩
abbrev S1x1x8 : Shape := ⟨3, ![1, 1, 8]⟩
abbrev S8192x512x1 : Shape := ⟨3, ![8192, 512, 1]⟩
abbrev S1x512 : Shape := ⟨2, ![1, 512]⟩

abbrev nBuf : Space → Nat
  | .hbm => 85
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S768x4096, .f32⟩
  | .hbm, ⟨3, _⟩ => ⟨S4096, .f32⟩
  | .hbm, ⟨4, _⟩ => ⟨S768x4096, .f32⟩
  | .hbm, ⟨5, _⟩ => ⟨S4096, .f32⟩
  | .hbm, ⟨6, _⟩ => ⟨S768x512, .f32⟩
  | .hbm, ⟨7, _⟩ => ⟨S512, .f32⟩
  | .hbm, ⟨8, _⟩ => ⟨S8, .f32⟩
  | .hbm, ⟨9, _⟩ => ⟨S8, .f32⟩
  | .hbm, ⟨10, _⟩ => ⟨S8192x512x8, .f32⟩
  | .hbm, ⟨11, _⟩ => ⟨S_, .f32⟩
  | .hbm, ⟨12, _⟩ => ⟨S8192x512, .f32⟩
  | .hbm, ⟨13, _⟩ => ⟨S8192x768, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x512x8, .f32⟩
  | .hbm, ⟨19, _⟩ => ⟨S1x1x8, .f32⟩
  | .hbm, ⟨20, _⟩ => ⟨S8192x512x8, .f32⟩
  | .hbm, ⟨21, _⟩ => ⟨S8192x512x8, .f32⟩
  | .hbm, ⟨22, _⟩ => ⟨S8192x512x8, .f32⟩
  | .hbm, ⟨23, _⟩ => ⟨S8192x512x8, .f32⟩
  | .hbm, ⟨24, _⟩ => ⟨S_, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512x1, .f32⟩
  | .hbm, ⟨30, _⟩ => ⟨S8192x512x8, .f32⟩
  | .hbm, ⟨31, _⟩ => ⟨S8192x512x8, .f32⟩
  | .hbm, ⟨32, _⟩ => ⟨S8192x512x8, .f32⟩
  | .hbm, ⟨33, _⟩ => ⟨S_, .f32⟩
  | .hbm, ⟨34, _⟩ => ⟨S8192x512, .f32⟩
  | .hbm, ⟨35, _⟩ => ⟨S8192x512x1, .f32⟩
  | .hbm, ⟨36, _⟩ => ⟨S8192x512x8, .f32⟩
  | .hbm, ⟨37, _⟩ => ⟨S8192x512x8, .f32⟩
  | .hbm, ⟨38, _⟩ => ⟨S8192x512x8, .f32⟩
  | .hbm, ⟨39, _⟩ => ⟨S_, .f32⟩
  | .hbm, ⟨40, _⟩ => ⟨S8192x512, .f32⟩
  | .hbm, ⟨41, _⟩ => ⟨S8192x768, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512x1, .f32⟩
  | .hbm, ⟨48, _⟩ => ⟨S8192x4096, .f32⟩
  | .hbm, ⟨49, _⟩ => ⟨S1x4096, .f32⟩
  | .hbm, ⟨50, _⟩ => ⟨S8192x4096, .f32⟩
  | .hbm, ⟨51, _⟩ => ⟨S8192x4096, .f32⟩
  | .hbm, ⟨52, _⟩ => ⟨S8192x512x8, .f32⟩
  | .hbm, ⟨53, _⟩ => ⟨S1x1x8, .f32⟩
  | .hbm, ⟨54, _⟩ => ⟨S8192x512x8, .f32⟩
  | .hbm, ⟨55, _⟩ => ⟨S8192x512x8, .f32⟩
  | .hbm, ⟨56, _⟩ => ⟨S8192x512x8, .f32⟩
  | .hbm, ⟨57, _⟩ => ⟨S8192x512x8, .f32⟩
  | .hbm, ⟨58, _⟩ => ⟨S_, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S8192x512x1, .f32⟩
  | .hbm, ⟨64, _⟩ => ⟨S8192x512x8, .f32⟩
  | .hbm, ⟨65, _⟩ => ⟨S8192x512x8, .f32⟩
  | .hbm, ⟨66, _⟩ => ⟨S8192x512x8, .f32⟩
  | .hbm, ⟨67, _⟩ => ⟨S_, .f32⟩
  | .hbm, ⟨68, _⟩ => ⟨S8192x512, .f32⟩
  | .hbm, ⟨69, _⟩ => ⟨S8192x512x1, .f32⟩
  | .hbm, ⟨70, _⟩ => ⟨S8192x512x8, .f32⟩
  | .hbm, ⟨71, _⟩ => ⟨S8192x512x8, .f32⟩
  | .hbm, ⟨72, _⟩ => ⟨S_, .f32⟩
  | .hbm, ⟨73, _⟩ => ⟨S8192x512x8, .f32⟩
  | .hbm, ⟨74, _⟩ => ⟨S8192x512x8, .f32⟩
  | .hbm, ⟨75, _⟩ => ⟨S8192x512x8, .f32⟩
  | .hbm, ⟨76, _⟩ => ⟨S8192x512x8, .f32⟩
  | .hbm, ⟨77, _⟩ => ⟨S8192x512x8, .f32⟩
  | .hbm, ⟨78, _⟩ => ⟨S8192x512x8, .f32⟩
  | .hbm, ⟨79, _⟩ => ⟨S1x1x8, .f32⟩
  | .hbm, ⟨80, _⟩ => ⟨S8192x512x8, .f32⟩
  | .hbm, ⟨81, _⟩ => ⟨S8192x512x8, .f32⟩
  | .hbm, ⟨82, _⟩ => ⟨S_, .f32⟩
  | .hbm, ⟨83, _⟩ => ⟨S8192x512, .f32⟩
  | .hbm, ⟨84, _⟩ => ⟨S8192x4096, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  shapeCasts_S8192x4096_S8192x512x8 : S8192x4096.ShapeCasts S8192x512x8
  reducesTo_S8192x512x8_S8192x512_d2 : S8192x512x8.ReducesTo [2] S8192x512
  h_S_ : 0 < S_.numel
  concatenates_S8192x256_S8192x512_S8192x768_d1 : Shape.Concatenates [S8192x256, S8192x512] S8192x768 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S8_S1x1x8_2 : S8.BroadcastsInDim S1x1x8 (![2] : Fin 1 → Fin S1x1x8.rank)
  bcast_S1x1x8_S8192x512x8_0_1_2 : S1x1x8.BroadcastsInDim S8192x512x8 (![0, 1, 2] : Fin 3 → Fin S8192x512x8.rank)
  bcast_S_S8192x512 : S_.BroadcastsInDim S8192x512 (![] : Fin 0 → Fin S8192x512.rank)
  bcast_S8192x512_S8192x512x1_0_1 : S8192x512.BroadcastsInDim S8192x512x1 (![0, 1] : Fin 2 → Fin S8192x512x1.rank)
  bcast_S8192x512x1_S8192x512x8_0_1_2 : S8192x512x1.BroadcastsInDim S8192x512x8 (![0, 1, 2] : Fin 3 → Fin S8192x512x8.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512x8 : S_.BroadcastsInDim S8192x512x8 (![] : Fin 0 → Fin S8192x512x8.rank)
  shapeCasts_S8192x512x8_S8192x4096 : S8192x512x8.ShapeCasts S8192x4096
  dot_S8192x768_S768x4096_S8192x4096_1_0_0_1_n_n_wf : DotDims.WF S8192x768 S768x4096 S8192x4096 [1] [0] [0] [1] [] []
  dot_S8192x768_S768x512_S8192x512_1_0_0_1_n_n_wf : DotDims.WF S8192x768 S768x512 S8192x512 [1] [0] [0] [1] [] []

variable [Facts₀]

def dot_S8192x768_S768x4096_S8192x4096_1_0_0_1_n_n : DotDims S8192x768 S768x4096 S8192x4096 where
  lhsContracting := [1]
  rhsContracting := [0]
  lhsNonContracting := [0]
  rhsNonContracting := [1]
  lhsBatch := []
  rhsBatch := []
  wf := dot_S8192x768_S768x4096_S8192x4096_1_0_0_1_n_n_wf
def dot_S8192x768_S768x512_S8192x512_1_0_0_1_n_n : DotDims S8192x768 S768x512 S8192x512 where
  lhsContracting := [1]
  rhsContracting := [0]
  lhsNonContracting := [0]
  rhsNonContracting := [1]
  lhsBatch := []
  rhsBatch := []
  wf := dot_S8192x768_S768x512_S8192x512_1_0_0_1_n_n_wf

class Facts : Prop extends Facts₀ where

variable [Facts]
-- ==== Proof.RowStep.lean ====
/-
  One step of the gated recurrent cell with eight time-constant buckets per unit, written for ONE batch row as
  plain functions on the extended reals.  A row carries 256 inputs `x` and, for each of its 512 units, eight bucket
  values `s u k`.  With `h u = ∑ k, s u k` and the row of 768 values `x ++ h`:

    * a gate is the softmax, over the eight buckets of a unit, of `-(l - τ k)²`, where `l` is an affine image of
      the row of 768 read at position `8 u + k` (retrieval gate: `W_r, b_r`; storage gate: `W_s, b_s`);
    * the retrieved value of a unit is `q u = ∑ k, r u k * s u k`;
    * the detected signal is `tanh` of an affine image (`W_d, b_d`) of `x ++ q`;
    * the new bucket value is `((1 - g u k) * s u k + g u k * signal u) * δ k`, and the unit's new total is its sum
      over the buckets.

  Every batch row is computed from its own row of the inputs and of the state alone; the whole-array results are
  these functions applied row by row.  The softmax is taken as the library of the reference takes it: the peak is the
  maximum of the eight values, floored at `-∞` once more, and the quotient is `exp (a k - peak) / ∑ exp (a k' - peak)`.
-/
import Idealize.ShloMosaic.PureOps.Ideal
import Idealize.ShloMosaic.Lib.ValueIdx

noncomputable section

namespace Cert.RowStep

open Idealize.ShloMosaic

/-- `-∞` as the programs spell it: the f32 word of negative infinity. -/
def negInf : EReal := Ideal.ofBits .f32 0xFF800000#32

/-- `1` as the programs spell it: the f32 word of one. -/
def one : EReal := Ideal.ofBits .f32 0x3F800000#32

/-- The largest of eight values, floored at `-∞` (the fold starts there, and the result is floored once more). -/
def peak (a : Fin 8 → EReal) : EReal :=
  max negInf ((Finset.univ : Finset (Fin 8)).fold max negInf a)

/-- The softmax of eight values. -/
def softmax8 (a : Fin 8 → EReal) (k : Fin 8) : EReal :=
  Ideal.div (Ideal.exp (a k - peak a)) (∑ k' : Fin 8, Ideal.exp (a k' - peak a))

/-- The negated squared distance of eight values from the eight time constants. -/
def negSq (τ l : Fin 8 → EReal) (k : Fin 8) : EReal :=
  -((l k - τ k) * (l k - τ k))

/-- Where bucket `k` of unit `u` sits in a row of 4096. -/
def slot (u : Fin 512) (k : Fin 8) : Fin 4096 := ⟨8 * u.val + k.val, by omega⟩

/-- A unit's total over its eight buckets. -/
def unitSum (s : Fin 512 → Fin 8 → EReal) (u : Fin 512) : EReal := ∑ k : Fin 8, s u k

/-- The 256 inputs followed by 512 per-unit values: a row of 768. -/
def joined (x : Fin 256 → EReal) (h : Fin 512 → EReal) (j : Fin 768) : EReal :=
  if hj : j.val < 256 then x ⟨j.val, hj⟩ else h ⟨j.val - 256, by omega⟩

/-- An affine image of a row of 768, read at column `c`. -/
def affine {n : Nat} (v : Fin 768 → EReal) (W : Fin 768 → Fin n → EReal) (b : Fin n → EReal) (c : Fin n) : EReal :=
  (∑ j : Fin 768, v j * W j c) + b c

/-- A gate: the softmax over a unit's buckets of the negated squared distance of its eight affine values from the
    time constants. -/
def gate (τ : Fin 8 → EReal) (v : Fin 768 → EReal) (W : Fin 768 → Fin 4096 → EReal) (b : Fin 4096 → EReal)
    (u : Fin 512) (k : Fin 8) : EReal :=
  softmax8 (negSq τ fun k' => affine v W b (slot u k')) k

section Row

variable (x : Fin 256 → EReal) (s : Fin 512 → Fin 8 → EReal)
  (Wr : Fin 768 → Fin 4096 → EReal) (br : Fin 4096 → EReal)
  (Ws : Fin 768 → Fin 4096 → EReal) (bs : Fin 4096 → EReal)
  (Wd : Fin 768 → Fin 512 → EReal) (bd : Fin 512 → EReal)
  (τ δ : Fin 8 → EReal)

/-- The inputs followed by the units' totals. -/
def fused : Fin 768 → EReal := joined x (unitSum s)

/-- The value retrieved from a unit's buckets under the retrieval gate. -/
def retrieved (u : Fin 512) : EReal := ∑ k : Fin 8, gate τ (fused x s) Wr br u k * s u k

/-- The detected signal of a unit. -/
def signal (u : Fin 512) : EReal := Ideal.tanh (affine (joined x (retrieved x s Wr br τ)) Wd bd u)

/-- The new value of bucket `k` of unit `u`. -/
def next (u : Fin 512) (k : Fin 8) : EReal :=
  ((one - gate τ (fused x s) Ws bs u k) * s u k + gate τ (fused x s) Ws bs u k * signal x s Wr br Wd bd τ u) * δ k

/-- The new total of unit `u`. -/
def nextSum (u : Fin 512) : EReal := ∑ k : Fin 8, next x s Wr br Ws bs Wd bd τ δ u k

end Row

end Cert.RowStep

end
-- ==== Proof.RowArrays.lean ====
/-
  The row step applied to whole arrays: batch row `b` of each result is the row step of row `b` of the inputs and of the
  state (bucket `k` of unit `u` at column `8 u + k` of the state's row), under the shared weights and tables.
-/
import proofs.«135037_j19593640804384_1_alg».proof.Proof.RowStep

noncomputable section

namespace Cert.RowStep

open Idealize.ShloMosaic Idealize.ShloMosaic.ValueIdx

section Arrays

variable (a0 : FVec Ideal ⟨2, ![8192, 256]⟩ .f32) (a1 : FVec Ideal ⟨2, ![8192, 4096]⟩ .f32)
  (a2 : FVec Ideal ⟨2, ![768, 4096]⟩ .f32) (a3 : FVec Ideal ⟨1, ![4096]⟩ .f32)
  (a4 : FVec Ideal ⟨2, ![768, 4096]⟩ .f32) (a5 : FVec Ideal ⟨1, ![4096]⟩ .f32)
  (a6 : FVec Ideal ⟨2, ![768, 512]⟩ .f32) (a7 : FVec Ideal ⟨1, ![512]⟩ .f32)
  (τ δ : Fin 8 → EReal)

/-- Row `b` of the inputs. -/
def inRow (b : Fin 8192) : Fin 256 → EReal := fun j => a0 (ix2 b j)
/-- Row `b` of the state, by unit and bucket. -/
def stRow (b : Fin 8192) : Fin 512 → Fin 8 → EReal := fun u k => a1 (ix2 b (slot u k))
/-- A matrix by row and column; a bias by column. -/
def mat {p q : Nat} (W : FVec Ideal ⟨2, ![p, q]⟩ .f32) : Fin p → Fin q → EReal := fun j c => W (ix2 j c)
def vec {q : Nat} (v : FVec Ideal ⟨1, ![q]⟩ .f32) : Fin q → EReal := fun c => v (ix1 c)

/-- The new bucket values of row `b`. -/
def nextRow (b : Fin 8192) : Fin 512 → Fin 8 → EReal :=
  next (inRow a0 b) (stRow a1 b) (mat a2) (vec a3) (mat a4) (vec a5) (mat a6) (vec a7) τ δ

/-- The new unit totals of row `b`. -/
def nextSumRow (b : Fin 8192) : Fin 512 → EReal :=
  nextSum (inRow a0 b) (stRow a1 b) (mat a2) (vec a3) (mat a4) (vec a5) (mat a6) (vec a7) τ δ

/-- The new bucket values, as an array [8192, 512, 8]. -/
def nextArr : FVec Ideal ⟨3, ![8192, 512, 8]⟩ .f32 :=
  fun i => nextRow a0 a1 a2 a3 a4 a5 a6 a7 τ δ (i 0) (i 1) (i 2)

/-- The new unit totals, as an array [8192, 512]. -/
def nextSumArr : FVec Ideal ⟨2, ![8192, 512]⟩ .f32 :=
  fun i => nextSumRow a0 a1 a2 a3 a4 a5 a6 a7 τ δ (i 0) (i 1)

theorem nextArr_apply (b : Fin 8192) (u : Fin 512) (k : Fin 8) :
    nextArr a0 a1 a2 a3 a4 a5 a6 a7 τ δ (ix3 b u k) = nextRow a0 a1 a2 a3 a4 a5 a6 a7 τ δ b u k := rfl

theorem nextSumArr_apply (b : Fin 8192) (u : Fin 512) :
    nextSumArr a0 a1 a2 a3 a4 a5 a6 a7 τ δ (ix2 b u) = nextSumRow a0 a1 a2 a3 a4 a5 a6 a7 τ δ b u := rfl

end Arrays

end Cert.RowStep

end
-- ==== Proof.KernelBlocks.lean ====
/-
  What the kernel's region finds in its windows, read as rows of the argument arrays.  The host operations before the
  region only re-lay the arguments: the state [8192, 4096] as [8192, 512, 8] (bucket `k` of unit `u` at column
  `8 u + k`), each bias as a one-row matrix, each table of eight words as [1, 1, 8], and each weight matrix through a
  change of float format, which is the identity on extended reals.  Grid point `t` stages rows
  `128 t … 128 t + 127` of the inputs and of the state, and the whole of every other operand.
-/
import proofs.«135037_j19593640804384_1_alg».proof.Proof.Gen.KernelIdeal.Frame
import proofs.«135037_j19593640804384_1_alg».proof.Proof.RowArrays
import Idealize.ShloMosaic.Lib.Pipeline.Value
import Idealize.ShloMosaic.Lib.StableHlo.Run
import Idealize.ShloMosaic.Lib.ValueIdx
import Idealize.ShloMosaic.Lib.ValueIdxCoords

noncomputable section

namespace Cert.KernelIdeal.Blocks

open Cert.KernelIdeal Cert.KernelIdeal.Gen Cert.RowStep
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The arrays as the region finds them -/

theorem V_state (c : Dev nD) :
    V m c main_v0 = shapeCast S8192x512x8 (m ((c : Thread nD τ).loc main_arg1)) shapeCasts_S8192x4096_S8192x512x8 := by
  show StableHlo.after hostOps0 (fun b => m (c, b)) (Proc.devRef .tc main_v0) = _
  after_results
  rfl

theorem V_Wr (c : Dev nD) :
    V m c main_v6 = (truncf .bf16 (m ((c : Thread nD τ).loc main_arg2) : FVec Ideal S768x4096 .f32) bitsLt_bf16_f32 : FVec Ideal S768x4096 .bf16) := by
  show StableHlo.after hostOps0 (fun b => m (c, b)) (Proc.devRef .tc main_v6) = _
  after_results

theorem V_br (c : Dev nD) :
    V m c main_v3 = shapeCast S1x4096 (m ((c : Thread nD τ).loc main_arg3)) shapeCasts_S4096_S1x4096 := by
  show StableHlo.after hostOps0 (fun b => m (c, b)) (Proc.devRef .tc main_v3) = _
  after_results
  rfl

theorem V_Ws (c : Dev nD) :
    V m c main_v7 = (truncf .bf16 (m ((c : Thread nD τ).loc main_arg4) : FVec Ideal S768x4096 .f32) bitsLt_bf16_f32 : FVec Ideal S768x4096 .bf16) := by
  show StableHlo.after hostOps0 (fun b => m (c, b)) (Proc.devRef .tc main_v7) = _
  after_results

theorem V_bs (c : Dev nD) :
    V m c main_v4 = shapeCast S1x4096 (m ((c : Thread nD τ).loc main_arg5)) shapeCasts_S4096_S1x4096 := by
  show StableHlo.after hostOps0 (fun b => m (c, b)) (Proc.devRef .tc main_v4) = _
  after_results
  rfl

theorem V_Wd (c : Dev nD) :
    V m c main_v8 = (truncf .bf16 (m ((c : Thread nD τ).loc main_arg6) : FVec Ideal S768x512 .f32) bitsLt_bf16_f32 : FVec Ideal S768x512 .bf16) := by
  show StableHlo.after hostOps0 (fun b => m (c, b)) (Proc.devRef .tc main_v8) = _
  after_results

theorem V_bd (c : Dev nD) :
    V m c main_v5 = shapeCast S1x512 (m ((c : Thread nD τ).loc main_arg7)) shapeCasts_S512_S1x512 := by
  show StableHlo.after hostOps0 (fun b => m (c, b)) (Proc.devRef .tc main_v5) = _
  after_results
  rfl

/-- The eight time constants and the eight decay factors, as the program's literal words denote them. -/
def tauK : Fin 8 → EReal := fun k => FloatOps.ofBits (F := Ideal) .f32 (lit0 (S8.rowMajor (ix1 k)))
def decayK : Fin 8 → EReal := fun k => FloatOps.ofBits (F := Ideal) .f32 (lit1 (S8.rowMajor (ix1 k)))

theorem V_tau (c : Dev nD) :
    V m c main_v1 = shapeCast S1x1x8 (fun i => FloatOps.ofBits (F := Ideal) .f32 (lit0 (S8.rowMajor i)) : FVec Ideal S8 .f32) shapeCasts_S8_S1x1x8 := by
  show StableHlo.after hostOps0 (fun b => m (c, b)) (Proc.devRef .tc main_v1) = _
  after_results
  rfl

theorem V_decay (c : Dev nD) :
    V m c main_v2 = shapeCast S1x1x8 (fun i => FloatOps.ofBits (F := Ideal) .f32 (lit1 (S8.rowMajor i)) : FVec Ideal S8 .f32) shapeCasts_S8_S1x1x8 := by
  show StableHlo.after hostOps0 (fun b => m (c, b)) (Proc.devRef .tc main_v2) = _
  after_results
  rfl

/-! ## The index maps, decided over the grid -/

theorem idx_facts : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = 0 ∧ win0_8.index t (1 : Fin 3) = 0 ∧ win0_8.index t (2 : Fin 3) = 0)
    ∧ (win0_9.index t (0 : Fin 3) = 0 ∧ win0_9.index t (1 : Fin 3) = 0 ∧ win0_9.index t (2 : Fin 3) = 0)
    ∧ (win0_10.index t (0 : Fin 2) = t.val ∧ win0_10.index t (1 : Fin 2) = 0)
    ∧ (win0_11.index t (0 : Fin 3) = t.val ∧ win0_11.index t (1 : Fin 3) = 0 ∧ win0_11.index t (2 : Fin 3) = 0) :=
  (by decide +kernel : ∀ t : Fin grid0.N, _)

/-- A grid point is one of 64. -/
theorem point_lt (t : Fin cfg0.N) : t.val < 64 := lt_of_lt_of_eq t.isLt N_0

/-- The row of the whole arrays that row `r` of point `t`'s blocks is. -/
def rowAt (t : Fin cfg0.N) (r : Fin 128) : Fin 8192 := ⟨128 * t.val + r.val, by have := point_lt t; omega⟩

/-! ## The blocks as rows -/

theorem blk_inputs (c : Dev nD) (t : Fin cfg0.N) (r : Fin 128) :
    (fun j : Fin 256 => (iblk m c 0 t (ix2 r j) : EReal)) = inRow (m ((c : Thread nD τ).loc main_arg0)) (rowAt t r) := by
  obtain ⟨⟨e0, e1⟩, -⟩ := idx_facts t
  funext j
  show V m c main_arg0 (((cfg0.win 0).blk t).view.emb (ix2 r j)) = m ((c : Thread nD τ).loc main_arg0) (ix2 (rowAt t r) j)
  rw [V_main_arg0]
  refine congrArg _ (funext fun a => Fin.ext ?_)
  match a with
  | ⟨0, _⟩ => show win0_0.index t (0 : Fin 2) * 128 + 1 * r.val = 128 * t.val + r.val; omega
  | ⟨1, _⟩ => show win0_0.index t (1 : Fin 2) * 256 + 1 * j.val = j.val; omega

theorem blk_state (c : Dev nD) (t : Fin cfg0.N) (r : Fin 128) :
    (fun (u : Fin 512) (k : Fin 8) => (iblk m c 1 t (ix3 r u k) : EReal)) = stRow (m ((c : Thread nD τ).loc main_arg1)) (rowAt t r) := by
  obtain ⟨-, ⟨e0, e1, e2⟩, -⟩ := idx_facts t
  funext u k
  show V m c main_v0 (((cfg0.win 1).blk t).view.emb (ix3 r u k)) = m ((c : Thread nD τ).loc main_arg1) (ix2 (rowAt t r) (slot u k))
  have he : ((cfg0.win 1).blk t).view.emb (ix3 r u k) = (ix3 (rowAt t r) u k : S8192x512x8.Idx) := by
    funext a; apply Fin.ext
    match a with
    | ⟨0, _⟩ => show win0_1.index t (0 : Fin 3) * 128 + 1 * r.val = 128 * t.val + r.val; omega
    | ⟨1, _⟩ => show win0_1.index t (1 : Fin 3) * 512 + 1 * u.val = u.val; omega
    | ⟨2, _⟩ => show win0_1.index t (2 : Fin 3) * 8 + 1 * k.val = k.val; omega
  rw [he, V_state]
  refine shapeCast_apply _ _ _ _ ?_
  show ((⟨2, ![8192, 4096]⟩ : Shape).rowMajor (ix2 (rowAt t r) (slot u k))).val = ((⟨3, ![8192, 512, 8]⟩ : Shape).rowMajor (ix3 (rowAt t r) u k)).val
  rw [Shape.rowMajor_val_two, Shape.rowMajor_val_three]
  show (rowAt t r).val * 4096 + (8 * u.val + k.val) = ((rowAt t r).val * 512 + u.val) * 8 + k.val
  omega

theorem blk_Wr (c : Dev nD) (t : Fin cfg0.N) :
    (fun (j : Fin 768) (c' : Fin 4096) => (iblk m c 2 t (ix2 j c') : EReal)) = mat (p := 768) (q := 4096) (m ((c : Thread nD τ).loc main_arg2)) := by
  have hi := idx_facts t
  funext j c'
  show V m c main_v6 (((cfg0.win 2).blk t).view.emb (ix2 j c')) = m ((c : Thread nD τ).loc main_arg2) (ix2 j c')
  rw [V_Wr]
  show m ((c : Thread nD τ).loc main_arg2) (((cfg0.win 2).blk t).view.emb (ix2 j c')) = _
  refine congrArg _ (funext fun a => Fin.ext ?_)
  match a with
  | ⟨0, _⟩ => show win0_2.index t (0 : Fin 2) * 768 + 1 * j.val = j.val; omega
  | ⟨1, _⟩ => show win0_2.index t (1 : Fin 2) * 4096 + 1 * c'.val = c'.val; omega

theorem blk_br (c : Dev nD) (t : Fin cfg0.N) :
    (fun (c' : Fin 4096) => (iblk m c 3 t (ix2 (0 : Fin 1) c') : EReal)) = vec (q := 4096) (m ((c : Thread nD τ).loc main_arg3)) := by
  have hi := idx_facts t
  funext c'
  show V m c main_v3 (((cfg0.win 3).blk t).view.emb (ix2 (0 : Fin 1) c')) = m ((c : Thread nD τ).loc main_arg3) (ix1 c')
  have he : ((cfg0.win 3).blk t).view.emb (ix2 (0 : Fin 1) c') = (ix2 (0 : Fin 1) c' : S1x4096.Idx) := by
    funext a; apply Fin.ext
    match a with
    | ⟨0, _⟩ => show win0_3.index t (0 : Fin 2) * 1 + 1 * 0 = 0; omega
    | ⟨1, _⟩ => show win0_3.index t (1 : Fin 2) * 4096 + 1 * c'.val = c'.val; omega
  rw [he, V_br]
  refine shapeCast_apply _ _ _ _ ?_
  show ((⟨1, ![4096]⟩ : Shape).rowMajor (ix1 c')).val = ((⟨2, ![1, 4096]⟩ : Shape).rowMajor (ix2 (0 : Fin 1) c')).val
  rw [Shape.rowMajor_val_one, Shape.rowMajor_val_two]
  show c'.val = 0 * 4096 + c'.val
  omega

theorem blk_Ws (c : Dev nD) (t : Fin cfg0.N) :
    (fun (j : Fin 768) (c' : Fin 4096) => (iblk m c 4 t (ix2 j c') : EReal)) = mat (p := 768) (q := 4096) (m ((c : Thread nD τ).loc main_arg4)) := by
  have hi := idx_facts t
  funext j c'
  show V m c main_v7 (((cfg0.win 4).blk t).view.emb (ix2 j c')) = m ((c : Thread nD τ).loc main_arg4) (ix2 j c')
  rw [V_Ws]
  show m ((c : Thread nD τ).loc main_arg4) (((cfg0.win 4).blk t).view.emb (ix2 j c')) = _
  refine congrArg _ (funext fun a => Fin.ext ?_)
  match a with
  | ⟨0, _⟩ => show win0_4.index t (0 : Fin 2) * 768 + 1 * j.val = j.val; omega
  | ⟨1, _⟩ => show win0_4.index t (1 : Fin 2) * 4096 + 1 * c'.val = c'.val; omega

theorem blk_bs (c : Dev nD) (t : Fin cfg0.N) :
    (fun (c' : Fin 4096) => (iblk m c 5 t (ix2 (0 : Fin 1) c') : EReal)) = vec (q := 4096) (m ((c : Thread nD τ).loc main_arg5)) := by
  have hi := idx_facts t
  funext c'
  show V m c main_v4 (((cfg0.win 5).blk t).view.emb (ix2 (0 : Fin 1) c')) = m ((c : Thread nD τ).loc main_arg5) (ix1 c')
  have he : ((cfg0.win 5).blk t).view.emb (ix2 (0 : Fin 1) c') = (ix2 (0 : Fin 1) c' : S1x4096.Idx) := by
    funext a; apply Fin.ext
    match a with
    | ⟨0, _⟩ => show win0_5.index t (0 : Fin 2) * 1 + 1 * 0 = 0; omega
    | ⟨1, _⟩ => show win0_5.index t (1 : Fin 2) * 4096 + 1 * c'.val = c'.val; omega
  rw [he, V_bs]
  refine shapeCast_apply _ _ _ _ ?_
  show ((⟨1, ![4096]⟩ : Shape).rowMajor (ix1 c')).val = ((⟨2, ![1, 4096]⟩ : Shape).rowMajor (ix2 (0 : Fin 1) c')).val
  rw [Shape.rowMajor_val_one, Shape.rowMajor_val_two]
  show c'.val = 0 * 4096 + c'.val
  omega

theorem blk_Wd (c : Dev nD) (t : Fin cfg0.N) :
    (fun (j : Fin 768) (c' : Fin 512) => (iblk m c 6 t (ix2 j c') : EReal)) = mat (p := 768) (q := 512) (m ((c : Thread nD τ).loc main_arg6)) := by
  have hi := idx_facts t
  funext j c'
  show V m c main_v8 (((cfg0.win 6).blk t).view.emb (ix2 j c')) = m ((c : Thread nD τ).loc main_arg6) (ix2 j c')
  rw [V_Wd]
  show m ((c : Thread nD τ).loc main_arg6) (((cfg0.win 6).blk t).view.emb (ix2 j c')) = _
  refine congrArg _ (funext fun a => Fin.ext ?_)
  match a with
  | ⟨0, _⟩ => show win0_6.index t (0 : Fin 2) * 768 + 1 * j.val = j.val; omega
  | ⟨1, _⟩ => show win0_6.index t (1 : Fin 2) * 512 + 1 * c'.val = c'.val; omega

theorem blk_bd (c : Dev nD) (t : Fin cfg0.N) :
    (fun (c' : Fin 512) => (iblk m c 7 t (ix2 (0 : Fin 1) c') : EReal)) = vec (q := 512) (m ((c : Thread nD τ).loc main_arg7)) := by
  have hi := idx_facts t
  funext c'
  show V m c main_v5 (((cfg0.win 7).blk t).view.emb (ix2 (0 : Fin 1) c')) = m ((c : Thread nD τ).loc main_arg7) (ix1 c')
  have he : ((cfg0.win 7).blk t).view.emb (ix2 (0 : Fin 1) c') = (ix2 (0 : Fin 1) c' : S1x512.Idx) := by
    funext a; apply Fin.ext
    match a with
    | ⟨0, _⟩ => show win0_7.index t (0 : Fin 2) * 1 + 1 * 0 = 0; omega
    | ⟨1, _⟩ => show win0_7.index t (1 : Fin 2) * 512 + 1 * c'.val = c'.val; omega
  rw [he, V_bd]
  refine shapeCast_apply _ _ _ _ ?_
  show ((⟨1, ![512]⟩ : Shape).rowMajor (ix1 c')).val = ((⟨2, ![1, 512]⟩ : Shape).rowMajor (ix2 (0 : Fin 1) c')).val
  rw [Shape.rowMajor_val_one, Shape.rowMajor_val_two]
  show c'.val = 0 * 512 + c'.val
  omega

theorem blk_tau (c : Dev nD) (t : Fin cfg0.N) :
    (fun (k : Fin 8) => (iblk m c 8 t (ix3 (0 : Fin 1) (0 : Fin 1) k) : EReal)) = tauK := by
  have hi := idx_facts t
  funext k
  show V m c main_v1 (((cfg0.win 8).blk t).view.emb (ix3 (0 : Fin 1) (0 : Fin 1) k)) = tauK k
  have he : ((cfg0.win 8).blk t).view.emb (ix3 (0 : Fin 1) (0 : Fin 1) k) = (ix3 (0 : Fin 1) (0 : Fin 1) k : S1x1x8.Idx) := by
    funext a; apply Fin.ext
    match a with
    | ⟨0, _⟩ => show win0_8.index t (0 : Fin 3) * 1 + 1 * 0 = 0; omega
    | ⟨1, _⟩ => show win0_8.index t (1 : Fin 3) * 1 + 1 * 0 = 0; omega
    | ⟨2, _⟩ => show win0_8.index t (2 : Fin 3) * 8 + 1 * k.val = k.val; omega
  rw [he, V_tau]
  refine (shapeCast_apply _ _ _ (ix1 k) ?_).trans rfl
  show ((⟨1, ![8]⟩ : Shape).rowMajor (ix1 k)).val = ((⟨3, ![1, 1, 8]⟩ : Shape).rowMajor (ix3 (0 : Fin 1) (0 : Fin 1) k)).val
  rw [Shape.rowMajor_val_one, Shape.rowMajor_val_three]
  show k.val = (0 * 1 + 0) * 8 + k.val
  omega

theorem blk_decay (c : Dev nD) (t : Fin cfg0.N) :
    (fun (k : Fin 8) => (iblk m c 9 t (ix3 (0 : Fin 1) (0 : Fin 1) k) : EReal)) = decayK := by
  have hi := idx_facts t
  funext k
  show V m c main_v2 (((cfg0.win 9).blk t).view.emb (ix3 (0 : Fin 1) (0 : Fin 1) k)) = decayK k
  have he : ((cfg0.win 9).blk t).view.emb (ix3 (0 : Fin 1) (0 : Fin 1) k) = (ix3 (0 : Fin 1) (0 : Fin 1) k : S1x1x8.Idx) := by
    funext a; apply Fin.ext
    match a with
    | ⟨0, _⟩ => show win0_9.index t (0 : Fin 3) * 1 + 1 * 0 = 0; omega
    | ⟨1, _⟩ => show win0_9.index t (1 : Fin 3) * 1 + 1 * 0 = 0; omega
    | ⟨2, _⟩ => show win0_9.index t (2 : Fin 3) * 8 + 1 * k.val = k.val; omega
  rw [he, V_decay]
  refine (shapeCast_apply _ _ _ (ix1 k) ?_).trans rfl
  show ((⟨1, ![8]⟩ : Shape).rowMajor (ix1 k)).val = ((⟨3, ![1, 1, 8]⟩ : Shape).rowMajor (ix3 (0 : Fin 1) (0 : Fin 1) k)).val
  rw [Shape.rowMajor_val_one, Shape.rowMajor_val_three]
  show k.val = (0 * 1 + 0) * 8 + k.val
  omega

end Cert.KernelIdeal.Blocks

end
-- ==== Proof.KernelRows.lean ====
/-
  The kernel's arithmetic on one block of 128 batch rows, read row by row at the exact (extended-real) instance:
  the stored payloads of the two outputs at row `r` are the row step of RowStep.lean applied to row `r` of the
  block's inputs and state, under the shared weights, biases and the two tables of eight words.
-/
import proofs.«135037_j19593640804384_1_alg».proof.Proof.Gen.KernelIdeal.Skeleton
import proofs.«135037_j19593640804384_1_alg».proof.Proof.RowStep
import Idealize.ShloMosaic.Lib.ValueIdx
import Idealize.ShloMosaic.Lib.ValueIdxCoords
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Cert.RowStep Idealize.ShloMosaic Idealize.ShloMosaic.ValueIdx

/-! ## The reductions over the eight buckets of a unit -/

/-- The index over `(r, u)` with bucket `k` inserted on the last axis. -/
theorem lift_bucket (r : Fin 128) (u : Fin 512) (k : Fin 8) :
    reduces_S128x512x8_S128x512.lift (ix2 r u) k = ix3 r u k := by
  funext c
  apply Fin.ext
  match c with
  | ⟨0, _⟩ => rfl
  | ⟨1, _⟩ => rfl
  | ⟨2, _⟩ => rfl

/-- A sum over the bucket axis, at `(r, u)`, is the sum of the eight bucket values. -/
theorem sum8_apply (v : FVec Ideal S128x512x8 .f32) (r : Fin 128) (u : Fin 512) :
    multiReduction (F := Ideal) .add [2] S128x512 v 0x00000000#32 reduces_S128x512x8_S128x512 (.inl rfl) rfl (ix2 r u)
      = ∑ k : Fin 8, v (ix3 r u k) := by
  refine (Ideal.multiReduction_add_single v 0x00000000#32 reduces_S128x512x8_S128x512 (.inl rfl) rfl (ix2 r u)).trans ?_
  exact Finset.sum_congr rfl fun k _ => congrArg v (lift_bucket r u k)

/-- A maximum over the bucket axis, at `(r, u)`, is the fold of `max` from `-∞` over the eight bucket values. -/
theorem max8_apply (v : FVec Ideal S128x512x8 .f32) (r : Fin 128) (u : Fin 512) :
    multiReduction (F := Ideal) .maximumf [2] S128x512 v 0xFF800000#32 reduces_S128x512x8_S128x512 (.inl rfl) rfl (ix2 r u)
      = (Finset.univ : Finset (Fin 8)).fold max negInf (fun k => v (ix3 r u k)) := by
  refine (Ideal.multiReduction_maximumf_single v 0xFF800000#32 reduces_S128x512x8_S128x512 (.inl rfl) rfl (ix2 r u)).trans ?_
  have e : (v ∘ reduces_S128x512x8_S128x512.lift (ix2 r u)) = fun k : Fin 8 => v (ix3 r u k) :=
    funext fun k => congrArg v (lift_bucket r u k)
  rw [e]
  rfl

/-! ## The 256 inputs followed by 512 per-unit values -/

/-- The concatenation along the columns, at `(r, j)`: the inputs' row for `j < 256`, the units' row after. -/
theorem concat_apply (a : FVec Ideal S128x256 .f32) (b : FVec Ideal S128x512 .f32) (r : Fin 128) (j : Fin 768) :
    concatenate S128x768 1 [⟨S128x256, a⟩, ⟨S128x512, b⟩] concatenates_S128x256_S128x512_S128x768_d1 (ix2 r j)
      = joined (fun j => a (ix2 r j)) (fun u => b (ix2 r u)) j := by
  unfold joined
  by_cases hj : j.val < 256
  · rw [dif_pos hj]
    refine concatenate_pair_apply_left (1 : Fin S128x768.rank) a b _ (ix2 r j) rfl (ix2 r ⟨j.val, hj⟩) fun c => ?_
    match c with
    | ⟨0, _⟩ => rfl
    | ⟨1, _⟩ => rfl
  · rw [dif_neg hj]
    refine concatenate_pair_apply_right (1 : Fin S128x768.rank) a b _ (ix2 r j) rfl rfl
      (ix2 r ⟨j.val - 256, by omega⟩) (fun c hc => ?_) ?_
    · match c with
      | ⟨0, _⟩ => rfl
      | ⟨1, _⟩ => exact absurd rfl hc
    · show (j.val - 256) + 256 = j.val
      omega

/-! ## The two products: the operands' indices, axis by axis, and the products at an index -/

theorem lhsBig_0 (i : S128x4096.Idx) (q : dot_S128x768_S768x4096_S128x4096_1_0_0_1_n_n.contr.Idx) :
    (dot_S128x768_S768x4096_S128x4096_1_0_0_1_n_n.lhsIdx i q 0).val = (i 0).val := by
  unfold DotDims.lhsIdx
  rw [dif_neg (show ¬(0 : Fin S128x768.rank) ∈ dot_S128x768_S768x4096_S128x4096_1_0_0_1_n_n.lhsBatch by decide),
    dif_pos (show (0 : Fin S128x768.rank) ∈ dot_S128x768_S768x4096_S128x4096_1_0_0_1_n_n.lhsNonContracting by decide)]
  rfl

theorem lhsBig_1 (i : S128x4096.Idx) (q : dot_S128x768_S768x4096_S128x4096_1_0_0_1_n_n.contr.Idx) :
    (dot_S128x768_S768x4096_S128x4096_1_0_0_1_n_n.lhsIdx i q 1).val = (q ⟨0, by decide⟩).val :=
  dot_S128x768_S768x4096_S128x4096_1_0_0_1_n_n.lhsIdx_val_of_single rfl i q

theorem rhsBig_0 (i : S128x4096.Idx) (q : dot_S128x768_S768x4096_S128x4096_1_0_0_1_n_n.contr.Idx) :
    (dot_S128x768_S768x4096_S128x4096_1_0_0_1_n_n.rhsIdx i q 0).val = (q ⟨0, by decide⟩).val :=
  dot_S128x768_S768x4096_S128x4096_1_0_0_1_n_n.rhsIdx_val_of_single rfl i q

theorem rhsBig_1 (i : S128x4096.Idx) (q : dot_S128x768_S768x4096_S128x4096_1_0_0_1_n_n.contr.Idx) :
    (dot_S128x768_S768x4096_S128x4096_1_0_0_1_n_n.rhsIdx i q 1).val = (i 1).val := by
  unfold DotDims.rhsIdx
  rw [dif_neg (show ¬(1 : Fin S768x4096.rank) ∈ dot_S128x768_S768x4096_S128x4096_1_0_0_1_n_n.rhsBatch by decide),
    dif_pos (show (1 : Fin S768x4096.rank) ∈ dot_S128x768_S768x4096_S128x4096_1_0_0_1_n_n.rhsNonContracting by decide)]
  rfl

/-- The product with a zero accumulator, at `(r, c)`: the sum over the 768 positions of the row of the left factor
    times column `c` of the right one. -/
theorem matmulBig_apply (lhs : FVec Ideal S128x768 .bf16) (W : FVec Ideal S768x4096 .bf16) (r : Fin 128) (c : Fin 4096) :
    matmul dot_S128x768_S768x4096_S128x4096_1_0_0_1_n_n none lhs W (constant (F := Ideal) S128x4096 .f32 0x00000000#32) (ix2 r c)
      = ∑ j : Fin 768, lhs (ix2 r j) * W (ix2 j c) := by
  simp only [matmul]
  rw [Ideal.matmul_constant_zero_apply, ← Equiv.sum_comp (contrEquiv1 dot_S128x768_S768x4096_S128x4096_1_0_0_1_n_n 768 rfl rfl).symm]
  refine Finset.sum_congr rfl fun k _ => ?_
  have hk := contrEquiv1_symm_val dot_S128x768_S768x4096_S128x4096_1_0_0_1_n_n 768 rfl rfl k
  have el : dot_S128x768_S768x4096_S128x4096_1_0_0_1_n_n.lhsIdx (ix2 r c) ((contrEquiv1 dot_S128x768_S768x4096_S128x4096_1_0_0_1_n_n 768 rfl rfl).symm k) = ix2 r k :=
    funext fun a => Fin.ext (by
      match a with
      | ⟨0, _⟩ => exact lhsBig_0 _ _
      | ⟨1, _⟩ => exact (lhsBig_1 _ _).trans hk)
  have er : dot_S128x768_S768x4096_S128x4096_1_0_0_1_n_n.rhsIdx (ix2 r c) ((contrEquiv1 dot_S128x768_S768x4096_S128x4096_1_0_0_1_n_n 768 rfl rfl).symm k) = ix2 k c :=
    funext fun a => Fin.ext (by
      match a with
      | ⟨0, _⟩ => exact (rhsBig_0 _ _).trans hk
      | ⟨1, _⟩ => exact rhsBig_1 _ _)
  rw [el, er]

theorem lhsSmall_0 (i : S128x512.Idx) (q : dot_S128x768_S768x512_S128x512_1_0_0_1_n_n.contr.Idx) :
    (dot_S128x768_S768x512_S128x512_1_0_0_1_n_n.lhsIdx i q 0).val = (i 0).val := by
  unfold DotDims.lhsIdx
  rw [dif_neg (show ¬(0 : Fin S128x768.rank) ∈ dot_S128x768_S768x512_S128x512_1_0_0_1_n_n.lhsBatch by decide),
    dif_pos (show (0 : Fin S128x768.rank) ∈ dot_S128x768_S768x512_S128x512_1_0_0_1_n_n.lhsNonContracting by decide)]
  rfl

theorem lhsSmall_1 (i : S128x512.Idx) (q : dot_S128x768_S768x512_S128x512_1_0_0_1_n_n.contr.Idx) :
    (dot_S128x768_S768x512_S128x512_1_0_0_1_n_n.lhsIdx i q 1).val = (q ⟨0, by decide⟩).val :=
  dot_S128x768_S768x512_S128x512_1_0_0_1_n_n.lhsIdx_val_of_single rfl i q

theorem rhsSmall_0 (i : S128x512.Idx) (q : dot_S128x768_S768x512_S128x512_1_0_0_1_n_n.contr.Idx) :
    (dot_S128x768_S768x512_S128x512_1_0_0_1_n_n.rhsIdx i q 0).val = (q ⟨0, by decide⟩).val :=
  dot_S128x768_S768x512_S128x512_1_0_0_1_n_n.rhsIdx_val_of_single rfl i q

theorem rhsSmall_1 (i : S128x512.Idx) (q : dot_S128x768_S768x512_S128x512_1_0_0_1_n_n.contr.Idx) :
    (dot_S128x768_S768x512_S128x512_1_0_0_1_n_n.rhsIdx i q 1).val = (i 1).val := by
  unfold DotDims.rhsIdx
  rw [dif_neg (show ¬(1 : Fin S768x512.rank) ∈ dot_S128x768_S768x512_S128x512_1_0_0_1_n_n.rhsBatch by decide),
    dif_pos (show (1 : Fin S768x512.rank) ∈ dot_S128x768_S768x512_S128x512_1_0_0_1_n_n.rhsNonContracting by decide)]
  rfl

/-- The product with a zero accumulator, at `(r, c)`: the sum over the 768 positions of the row of the left factor
    times column `c` of the right one. -/
theorem matmulSmall_apply (lhs : FVec Ideal S128x768 .bf16) (W : FVec Ideal S768x512 .bf16) (r : Fin 128) (c : Fin 512) :
    matmul dot_S128x768_S768x512_S128x512_1_0_0_1_n_n none lhs W (constant (F := Ideal) S128x512 .f32 0x00000000#32) (ix2 r c)
      = ∑ j : Fin 768, lhs (ix2 r j) * W (ix2 j c) := by
  simp only [matmul]
  rw [Ideal.matmul_constant_zero_apply, ← Equiv.sum_comp (contrEquiv1 dot_S128x768_S768x512_S128x512_1_0_0_1_n_n 768 rfl rfl).symm]
  refine Finset.sum_congr rfl fun k _ => ?_
  have hk := contrEquiv1_symm_val dot_S128x768_S768x512_S128x512_1_0_0_1_n_n 768 rfl rfl k
  have el : dot_S128x768_S768x512_S128x512_1_0_0_1_n_n.lhsIdx (ix2 r c) ((contrEquiv1 dot_S128x768_S768x512_S128x512_1_0_0_1_n_n 768 rfl rfl).symm k) = ix2 r k :=
    funext fun a => Fin.ext (by
      match a with
      | ⟨0, _⟩ => exact lhsSmall_0 _ _
      | ⟨1, _⟩ => exact (lhsSmall_1 _ _).trans hk)
  have er : dot_S128x768_S768x512_S128x512_1_0_0_1_n_n.rhsIdx (ix2 r c) ((contrEquiv1 dot_S128x768_S768x512_S128x512_1_0_0_1_n_n 768 rfl rfl).symm k) = ix2 k c :=
    funext fun a => Fin.ext (by
      match a with
      | ⟨0, _⟩ => exact (rhsSmall_0 _ _).trans hk
      | ⟨1, _⟩ => exact rhsSmall_1 _ _)
  rw [el, er]

/-! ## A per-unit value spread over the unit's eight buckets -/

/-- A `[128, 512]` array given a unit last axis and repeated along it eight times. -/
def spread (m : FVec Ideal S128x512 .f32) : FVec Ideal S128x512x8 .f32 :=
  broadcastTo S128x512x8 (shapeCast S128x512x1 m shapeCasts_S128x512_S128x512x1) broadcasts_S128x512x1_S128x512x8

/-- It reads `(r, u, k) ↦ (r, u)`. -/
theorem spread_apply (m : FVec Ideal S128x512 .f32) (r : Fin 128) (u : Fin 512) (k : Fin 8) :
    spread m (ix3 r u k) = m (ix2 r u) := by
  unfold spread
  refine (broadcastTo_apply _ broadcasts_S128x512x1_S128x512x8 (ix3 r u k) (ix3 r u (0 : Fin 1)) fun a => ?_).trans ?_
  · match a with
    | ⟨0, _⟩ => rfl
    | ⟨1, _⟩ => rfl
    | ⟨2, _⟩ => rfl
  · refine shapeCast_apply m shapeCasts_S128x512_S128x512x1 (ix3 r u (0 : Fin 1)) (ix2 r u) ?_
    rw [Shape.rowMajor_val_two, Shape.rowMajor_val_three]
    show r.val * 512 + u.val = (r.val * 512 + u.val) * 1 + 0
    omega

/-- The table of eight words repeated over every row and unit reads `(r, u, k) ↦ k`. -/
theorem table_apply (t : FVec Ideal S1x1x8 .f32) (r : Fin 128) (u : Fin 512) (k : Fin 8) :
    broadcastTo S128x512x8 t broadcasts_S1x1x8_S128x512x8 (ix3 r u k) = t (ix3 (0 : Fin 1) (0 : Fin 1) k) := by
  refine broadcastTo_apply t broadcasts_S1x1x8_S128x512x8 (ix3 r u k) (ix3 (0 : Fin 1) (0 : Fin 1) k) fun a => ?_
  match a with
  | ⟨0, _⟩ => rfl
  | ⟨1, _⟩ => rfl
  | ⟨2, _⟩ => rfl

/-! ## The softmax over a unit's buckets -/

/-- The largest of a unit's eight values, floored at `-∞`, as an array `[128, 512]`. -/
def peakV (a : FVec Ideal S128x512x8 .f32) : FVec Ideal S128x512 .f32 :=
  maximumf (broadcast S128x512 (Scalar.ofBits .f32 0xFF800000#32))
    (multiReduction .maximumf [2] S128x512 a 0xFF800000#32 reduces_S128x512x8_S128x512 (.inl rfl) rfl)

theorem peakV_apply (a : FVec Ideal S128x512x8 .f32) (r : Fin 128) (u : Fin 512) :
    peakV a (ix2 r u) = peak (fun k => a (ix3 r u k)) := by
  unfold peakV peak
  show max (Ideal.ofBits .f32 0xFF800000#32) _ = _
  rw [max8_apply]
  rfl

/-- The exponentials of the values less their unit's peak. -/
def shiftedV (a : FVec Ideal S128x512x8 .f32) : FVec Ideal S128x512x8 .f32 :=
  exp (subf a (spread (peakV a)))

theorem shiftedV_apply (a : FVec Ideal S128x512x8 .f32) (r : Fin 128) (u : Fin 512) (k : Fin 8) :
    shiftedV a (ix3 r u k) = Ideal.exp (a (ix3 r u k) - peak (fun k => a (ix3 r u k))) := by
  unfold shiftedV
  show Ideal.exp (a (ix3 r u k) - spread (peakV a) (ix3 r u k)) = _
  rw [spread_apply, peakV_apply]

/-- The softmax over the bucket axis. -/
def softmaxV (a : FVec Ideal S128x512x8 .f32) : FVec Ideal S128x512x8 .f32 :=
  divf (shiftedV a)
    (spread (multiReduction .add [2] S128x512 (shiftedV a) 0x00000000#32 reduces_S128x512x8_S128x512 (.inl rfl) rfl))

theorem softmaxV_apply (a : FVec Ideal S128x512x8 .f32) (r : Fin 128) (u : Fin 512) (k : Fin 8) :
    softmaxV a (ix3 r u k) = softmax8 (fun k => a (ix3 r u k)) k := by
  unfold softmaxV softmax8
  show Ideal.div (shiftedV a (ix3 r u k)) (spread _ (ix3 r u k)) = _
  rw [spread_apply, sum8_apply, shiftedV_apply]
  exact congrArg _ (Finset.sum_congr rfl fun k' _ => shiftedV_apply a r u k')

/-! ## The negated squared distance from the time constants -/

def negSqV (t : FVec Ideal S1x1x8 .f32) (l : FVec Ideal S128x512x8 .f32) : FVec Ideal S128x512x8 .f32 :=
  subf (broadcast S128x512x8 (Scalar.ofBits .f32 0x00000000#32))
    (mulf (subf l (broadcastTo S128x512x8 t broadcasts_S1x1x8_S128x512x8))
      (subf l (broadcastTo S128x512x8 t broadcasts_S1x1x8_S128x512x8)))

theorem negSqV_apply (t : FVec Ideal S1x1x8 .f32) (l : FVec Ideal S128x512x8 .f32) (r : Fin 128) (u : Fin 512) (k : Fin 8) :
    negSqV t l (ix3 r u k)
      = negSq (fun k => t (ix3 (0 : Fin 1) (0 : Fin 1) k)) (fun k => l (ix3 r u k)) k := by
  unfold negSqV negSq
  show Ideal.ofBits .f32 0x00000000#32
      - (l (ix3 r u k) - broadcastTo S128x512x8 t broadcasts_S1x1x8_S128x512x8 (ix3 r u k))
        * (l (ix3 r u k) - broadcastTo S128x512x8 t broadcasts_S1x1x8_S128x512x8 (ix3 r u k)) = _
  rw [table_apply, Ideal.ofBits_zero_f32, zero_sub]

/-! ## The affine values with the bucket axis split off -/

/-- The row of 768 times a `[768, 4096]` matrix plus the bias, recast to `[128, 512, 8]`. -/
def affV (lhs : FVec Ideal S128x768 .bf16) (W : FVec Ideal S768x4096 .bf16) (bias : FVec Ideal S1x4096 .f32) :
    FVec Ideal S128x512x8 .f32 :=
  shapeCast S128x512x8
    (addf (matmul dot_S128x768_S768x4096_S128x4096_1_0_0_1_n_n none lhs (shapeCast S768x4096 W shapeCasts_S768x4096_S768x4096)
        (constant S128x4096 .f32 0x00000000#32))
      (broadcastTo S128x4096 (shapeCast S1x4096 bias shapeCasts_S1x4096_S1x4096) broadcasts_S1x4096_S128x4096))
    shapeCasts_S128x4096_S128x512x8

theorem affV_apply (lhs : FVec Ideal S128x768 .bf16) (W : FVec Ideal S768x4096 .bf16) (bias : FVec Ideal S1x4096 .f32)
    (r : Fin 128) (u : Fin 512) (k : Fin 8) :
    affV lhs W bias (ix3 r u k)
      = affine (fun j => lhs (ix2 r j)) (fun j c => W (ix2 j c)) (fun c => bias (ix2 (0 : Fin 1) c)) (slot u k) := by
  unfold affV affine
  rw [shapeCast_self, shapeCast_self]
  refine (shapeCast_apply _ shapeCasts_S128x4096_S128x512x8 (ix3 r u k) (ix2 r (slot u k)) ?_).trans ?_
  · rw [Shape.rowMajor_val_two, Shape.rowMajor_val_three]
    show r.val * 4096 + (8 * u.val + k.val) = (r.val * 512 + u.val) * 8 + k.val
    omega
  · show matmul dot_S128x768_S768x4096_S128x4096_1_0_0_1_n_n none lhs W (constant S128x4096 .f32 0x00000000#32) (ix2 r (slot u k))
        + broadcastTo S128x4096 bias broadcasts_S1x4096_S128x4096 (ix2 r (slot u k)) = _
    rw [matmulBig_apply, broadcastTo_1b_ab_apply]

/-! ## A gate -/

def gateV (t : FVec Ideal S1x1x8 .f32) (lhs : FVec Ideal S128x768 .bf16) (W : FVec Ideal S768x4096 .bf16)
    (bias : FVec Ideal S1x4096 .f32) : FVec Ideal S128x512x8 .f32 :=
  softmaxV (negSqV t (affV lhs W bias))

theorem gateV_apply (t : FVec Ideal S1x1x8 .f32) (lhs : FVec Ideal S128x768 .bf16) (W : FVec Ideal S768x4096 .bf16)
    (bias : FVec Ideal S1x4096 .f32) (r : Fin 128) (u : Fin 512) (k : Fin 8) :
    gateV t lhs W bias (ix3 r u k)
      = gate (fun k => t (ix3 (0 : Fin 1) (0 : Fin 1) k)) (fun j => lhs (ix2 r j)) (fun j c => W (ix2 j c))
          (fun c => bias (ix2 (0 : Fin 1) c)) u k := by
  unfold gateV gate
  rw [softmaxV_apply]
  refine congrArg (fun f => softmax8 f k) (funext fun k' => ?_)
  rw [negSqV_apply]
  exact congrArg (fun f => negSq _ f k') (funext fun k'' => affV_apply lhs W bias r u k'')

/-! ## The detected signal -/

/-- `tanh` of the row of 768 times a `[768, 512]` matrix plus the bias. -/
def signalV (p : FVec Ideal S128x768 .bf16) (W : FVec Ideal S768x512 .bf16) (bias : FVec Ideal S1x512 .f32) :
    FVec Ideal S128x512 .f32 :=
  tanh (addf (matmul dot_S128x768_S768x512_S128x512_1_0_0_1_n_n none p W (constant S128x512 .f32 0x00000000#32))
    (broadcastTo S128x512 (shapeCast S1x512 bias shapeCasts_S1x512_S1x512) broadcasts_S1x512_S128x512))

theorem signalV_apply (p : FVec Ideal S128x768 .bf16) (W : FVec Ideal S768x512 .bf16) (bias : FVec Ideal S1x512 .f32)
    (r : Fin 128) (u : Fin 512) :
    signalV p W bias (ix2 r u)
      = Ideal.tanh (affine (fun j => p (ix2 r j)) (fun j c => W (ix2 j c)) (fun c => bias (ix2 (0 : Fin 1) c)) u) := by
  unfold signalV affine
  rw [shapeCast_self]
  show Ideal.tanh (matmul dot_S128x768_S768x512_S128x512_1_0_0_1_n_n none p W (constant S128x512 .f32 0x00000000#32) (ix2 r u)
      + broadcastTo S128x512 bias broadcasts_S1x512_S128x512 (ix2 r u)) = _
  rw [matmulSmall_apply, broadcastTo_1b_ab_apply]

/-! ## The payloads -/

theorem pay1_eq (x1 : Vec Ideal S128x512x8 .f32) : k0_pay1 x1 = x1 := by
  unfold k0_pay1
  exact shapeCast_self _ _

theorem pay3_eq (x8 : Vec Ideal S1x1x8 .f32) : k0_pay3 x8 = x8 := by
  unfold k0_pay3
  exact shapeCast_self _ _

theorem pay5_eq (x6 : Vec Ideal S768x512 .bf16) : k0_pay5 x6 = x6 := by
  unfold k0_pay5
  exact shapeCast_self _ _

/-- The first left factor, row `r`: the inputs followed by the units' totals. -/
theorem pay2_apply (x0 : Vec Ideal S128x256 .f32) (x1 : Vec Ideal S128x512x8 .f32) (r : Fin 128) (j : Fin 768) :
    k0_pay2 x0 x1 (ix2 r j) = fused (fun j => x0 (ix2 r j)) (fun u k => x1 (ix3 r u k)) j := by
  unfold k0_pay2 fused
  show concatenate S128x768 1 [⟨S128x256, x0⟩, ⟨S128x512, multiReduction .add [2] S128x512 (k0_pay1 x1) 0x00000000#32
      reduces_S128x512x8_S128x512 (.inl rfl) rfl⟩] concatenates_S128x256_S128x512_S128x768_d1 (ix2 r j) = _
  rw [concat_apply, pay1_eq]
  exact congrArg (fun h => joined _ h j) (funext fun u => sum8_apply x1 r u)

/-- The second left factor as the stages above. -/
theorem pay4_eq (x0 : Vec Ideal S128x256 .f32) (x1 : Vec Ideal S128x512x8 .f32) (x2 : Vec Ideal S768x4096 .bf16)
    (x3 : Vec Ideal S1x4096 .f32) (x8 : Vec Ideal S1x1x8 .f32) :
    k0_pay4 x0 x1 x2 x3 x8
      = truncf .bf16 (concatenate S128x768 1 [⟨S128x256, x0⟩, ⟨S128x512,
          multiReduction .add [2] S128x512 (mulf (gateV (k0_pay3 x8) (k0_pay2 x0 x1) x2 x3) (k0_pay1 x1)) 0x00000000#32
            reduces_S128x512x8_S128x512 (.inl rfl) rfl⟩] concatenates_S128x256_S128x512_S128x768_d1) bitsLt_bf16_f32 :=
  rfl

/-- The second left factor, row `r`: the inputs followed by the retrieved values. -/
theorem pay4_apply (x0 : Vec Ideal S128x256 .f32) (x1 : Vec Ideal S128x512x8 .f32) (x2 : Vec Ideal S768x4096 .bf16)
    (x3 : Vec Ideal S1x4096 .f32) (x8 : Vec Ideal S1x1x8 .f32) (r : Fin 128) (j : Fin 768) :
    k0_pay4 x0 x1 x2 x3 x8 (ix2 r j)
      = joined (fun j => x0 (ix2 r j))
          (retrieved (fun j => x0 (ix2 r j)) (fun u k => x1 (ix3 r u k)) (fun j c => x2 (ix2 j c))
            (fun c => x3 (ix2 0 c)) (fun k => x8 (ix3 0 0 k))) j := by
  rw [pay4_eq]
  show concatenate S128x768 1 [⟨S128x256, x0⟩, ⟨S128x512,
      multiReduction .add [2] S128x512 (mulf (gateV (k0_pay3 x8) (k0_pay2 x0 x1) x2 x3) (k0_pay1 x1)) 0x00000000#32
        reduces_S128x512x8_S128x512 (.inl rfl) rfl⟩] concatenates_S128x256_S128x512_S128x768_d1 (ix2 r j) = _
  rw [concat_apply]
  refine congrArg (fun h => joined _ h j) (funext fun u => ?_)
  rw [sum8_apply]
  unfold retrieved
  refine Finset.sum_congr rfl fun k _ => ?_
  show gateV (k0_pay3 x8) (k0_pay2 x0 x1) x2 x3 (ix3 r u k) * k0_pay1 x1 (ix3 r u k) = _
  rw [gateV_apply, pay1_eq, pay3_eq]
  exact congrArg (fun v => gate _ v _ _ u k * _) (funext fun j => pay2_apply x0 x1 r j)

/-- The new bucket values as the stages above. -/
theorem pay6_eq (v2 : FVec Ideal S128x512x8 .f32) (v5 : FVec Ideal S128x768 .bf16) (v15 : FVec Ideal S1x1x8 .f32)
    (v35 : FVec Ideal S128x768 .bf16) (v37 : FVec Ideal S768x512 .bf16) (v39 : Vec Ideal S1x512 .f32)
    (v45 : Vec Ideal S768x4096 .bf16) (v48 : Vec Ideal S1x4096 .f32) (v69 : Vec Ideal S1x1x8 .f32) :
    k0_pay6 v2 v5 v15 v35 v37 v39 v45 v48 v69
      = mulf (addf (mulf (subf (broadcast S128x512x8 (Scalar.ofBits .f32 0x3F800000#32)) (gateV v15 v5 v45 v48)) v2)
            (mulf (gateV v15 v5 v45 v48) (spread (signalV v35 v37 v39))))
          (broadcastTo S128x512x8 (shapeCast S1x1x8 v69 shapeCasts_S1x1x8_S1x1x8) broadcasts_S1x1x8_S128x512x8) :=
  rfl

/-- The stored payload of the second output at `(r, u, k)`: the row step's new value of bucket `k` of unit `u`. -/
theorem pay6_apply (x0 : Vec Ideal S128x256 .f32) (x1 : Vec Ideal S128x512x8 .f32) (x2 : Vec Ideal S768x4096 .bf16) (x3 : Vec Ideal S1x4096 .f32) (x4 : Vec Ideal S768x4096 .bf16) (x5 : Vec Ideal S1x4096 .f32) (x6 : Vec Ideal S768x512 .bf16) (x7 : Vec Ideal S1x512 .f32) (x8 x9 : Vec Ideal S1x1x8 .f32)
    (r : Fin 128) (u : Fin 512) (k : Fin 8) :
    k0_pay6 (k0_pay1 x1) (k0_pay2 x0 x1) (k0_pay3 x8) (k0_pay4 x0 x1 x2 x3 x8) (k0_pay5 x6) x7 x4 x5 x9 (ix3 r u k)
      = next (fun j => x0 (ix2 r j)) (fun u k => x1 (ix3 r u k)) (fun j c => x2 (ix2 j c)) (fun c => x3 (ix2 0 c))
          (fun j c => x4 (ix2 j c)) (fun c => x5 (ix2 0 c)) (fun j c => x6 (ix2 j c)) (fun c => x7 (ix2 0 c))
          (fun k => x8 (ix3 0 0 k)) (fun k => x9 (ix3 0 0 k)) u k := by
  rw [pay6_eq]
  show ((Ideal.ofBits .f32 0x3F800000#32 - gateV (k0_pay3 x8) (k0_pay2 x0 x1) x4 x5 (ix3 r u k)) * k0_pay1 x1 (ix3 r u k)
      + gateV (k0_pay3 x8) (k0_pay2 x0 x1) x4 x5 (ix3 r u k)
        * spread (signalV (k0_pay4 x0 x1 x2 x3 x8) (k0_pay5 x6) x7) (ix3 r u k))
      * broadcastTo S128x512x8 (shapeCast S1x1x8 x9 shapeCasts_S1x1x8_S1x1x8) broadcasts_S1x1x8_S128x512x8 (ix3 r u k) = _
  rw [spread_apply, signalV_apply, shapeCast_self, table_apply, gateV_apply, pay1_eq, pay3_eq, pay5_eq]
  have e2 : (fun j => k0_pay2 x0 x1 (ix2 r j)) = fused (fun j => x0 (ix2 r j)) (fun u k => x1 (ix3 r u k)) :=
    funext (pay2_apply x0 x1 r)
  have e4 : (fun j => k0_pay4 x0 x1 x2 x3 x8 (ix2 r j))
      = joined (fun j => x0 (ix2 r j))
          (retrieved (fun j => x0 (ix2 r j)) (fun u k => x1 (ix3 r u k)) (fun j c => x2 (ix2 j c))
            (fun c => x3 (ix2 0 c)) (fun k => x8 (ix3 0 0 k))) :=
    funext (pay4_apply x0 x1 x2 x3 x8 r)
  rw [e2, e4]
  rfl

/-- The stored payload of the first output at `(r, u)`: the row step's new total of unit `u`. -/
theorem pay7_apply (x0 : Vec Ideal S128x256 .f32) (x1 : Vec Ideal S128x512x8 .f32) (x2 : Vec Ideal S768x4096 .bf16) (x3 : Vec Ideal S1x4096 .f32) (x4 : Vec Ideal S768x4096 .bf16) (x5 : Vec Ideal S1x4096 .f32) (x6 : Vec Ideal S768x512 .bf16) (x7 : Vec Ideal S1x512 .f32) (x8 x9 : Vec Ideal S1x1x8 .f32)
    (r : Fin 128) (u : Fin 512) :
    k0_pay7 (k0_pay1 x1) (k0_pay2 x0 x1) (k0_pay3 x8) (k0_pay4 x0 x1 x2 x3 x8) (k0_pay5 x6) x7 x4 x5 x9 (ix2 r u)
      = nextSum (fun j => x0 (ix2 r j)) (fun u k => x1 (ix3 r u k)) (fun j c => x2 (ix2 j c)) (fun c => x3 (ix2 0 c))
          (fun j c => x4 (ix2 j c)) (fun c => x5 (ix2 0 c)) (fun j c => x6 (ix2 j c)) (fun c => x7 (ix2 0 c))
          (fun k => x8 (ix3 0 0 k)) (fun k => x9 (ix3 0 0 k)) u := by
  unfold k0_pay7 nextSum
  show multiReduction .add [2] S128x512
      (k0_pay6 (k0_pay1 x1) (k0_pay2 x0 x1) (k0_pay3 x8) (k0_pay4 x0 x1 x2 x3 x8) (k0_pay5 x6) x7 x4 x5 x9) 0x00000000#32
      reduces_S128x512x8_S128x512 (.inl rfl) rfl (ix2 r u) = _
  rw [sum8_apply]
  exact Finset.sum_congr rfl fun k _ => pay6_apply x0 x1 x2 x3 x4 x5 x6 x7 x8 x9 r u k

end Cert.KernelIdeal.Rows

end
-- ==== Proof.KernelArrays.lean ====
/-
  From blocks to arrays.  Grid point `t` writes back, for rows `128 t … 128 t + 127`, the row step of those rows; the
  64 points' blocks tile the two result arrays, so after the region each array is the row step applied to every row.  The
  one host operation after the region folds the bucket axis of the second result back into its row.
-/
import proofs.«135037_j19593640804384_1_alg».proof.Proof.KernelBlocks
import proofs.«135037_j19593640804384_1_alg».proof.Proof.KernelRows
import Idealize.ShloMosaic.Lib.Pipeline.Value
import Idealize.ShloMosaic.Lib.StableHlo.Run

noncomputable section

namespace Cert.KernelIdeal.Arrays

open Cert.KernelIdeal Cert.KernelIdeal.Gen Cert.KernelIdeal.Blocks Cert.KernelIdeal.Rows Cert.RowStep
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The new bucket values of every row, from the arguments as launched. -/
def newBuckets (c : Dev nD) : FVec Ideal S8192x512x8 .f32 :=
  nextArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) tauK decayK

/-- The new unit totals of every row, from the arguments as launched. -/
def newTotals (c : Dev nD) : FVec Ideal S8192x512 .f32 :=
  nextSumArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) tauK decayK

/-! ## What a point writes back -/

/-- Point `t` writes back block `t` of the new bucket values. -/
theorem flushed11_eq (c : Dev nD) (t : Fin cfg0.N) :
    (dats m 0 c).flushed 11 t = ((cfg0.win 11).blk t).view.read (Elt Ideal) (newBuckets m c) := by
  show (cfg0.win 11).cut (grid0.coords t) ((dats m 0 c).after 11 t) = _
  rw [after0_11]
  unfold out0_11
  rw [View.canon_unit_zero hz3]
  simp only [View.ld_unit_zero (S := S128x256) hz2, View.ld_unit_zero (S := S128x512x8) hz3, View.ld_unit_zero (S := S768x4096) hz2,
    View.ld_unit_zero (S := S1x4096) hz2, View.ld_unit_zero (S := S768x512) hz2, View.ld_unit_zero (S := S1x512) hz2,
    View.ld_unit_zero (S := S1x1x8) hz3]
  funext y
  obtain ⟨r, u, k, rfl⟩ : ∃ (r : Fin 128) (u : Fin 512) (k : Fin 8), y = ix3 r u k := ⟨y 0, y 1, y 2, eq_ix3 y⟩
  obtain ⟨-, -, -, -, -, -, -, -, -, -, -, ⟨e0, e1, e2⟩⟩ := idx_facts t
  have he : ((cfg0.win 11).blk t).view.emb (ix3 r u k) = (ix3 (rowAt t r) u k : S8192x512x8.Idx) := by
    funext a; apply Fin.ext
    match a with
    | ⟨0, _⟩ => show win0_11.index t (0 : Fin 3) * 128 + 1 * r.val = 128 * t.val + r.val; omega
    | ⟨1, _⟩ => show win0_11.index t (1 : Fin 3) * 512 + 1 * u.val = u.val; omega
    | ⟨2, _⟩ => show win0_11.index t (2 : Fin 3) * 8 + 1 * k.val = k.val; omega
  show _ = newBuckets m c (((cfg0.win 11).blk t).view.emb (ix3 r u k))
  rw [he]
  refine (pay6_apply (iblk m c 0 t) (iblk m c 1 t) (iblk m c 2 t) (iblk m c 3 t) (iblk m c 4 t) (iblk m c 5 t) (iblk m c 6 t) (iblk m c 7 t) (iblk m c 8 t) (iblk m c 9 t) r u k).trans ?_
  rw [blk_inputs m c t r, blk_state m c t r, blk_Wr m c t, blk_br m c t, blk_Ws m c t, blk_bs m c t, blk_Wd m c t, blk_bd m c t, blk_tau m c t, blk_decay m c t]
  rfl

/-- Point `t` writes back block `t` of the new unit totals. -/
theorem flushed10_eq (c : Dev nD) (t : Fin cfg0.N) :
    (dats m 0 c).flushed 10 t = ((cfg0.win 10).blk t).view.read (Elt Ideal) (newTotals m c) := by
  show (cfg0.win 10).cut (grid0.coords t) ((dats m 0 c).after 10 t) = _
  rw [after0_10]
  unfold out0_10
  rw [View.canon_unit_zero hz2]
  simp only [View.ld_unit_zero (S := S128x256) hz2, View.ld_unit_zero (S := S128x512x8) hz3, View.ld_unit_zero (S := S768x4096) hz2,
    View.ld_unit_zero (S := S1x4096) hz2, View.ld_unit_zero (S := S768x512) hz2, View.ld_unit_zero (S := S1x512) hz2,
    View.ld_unit_zero (S := S1x1x8) hz3]
  funext y
  obtain ⟨r, u, rfl⟩ : ∃ (r : Fin 128) (u : Fin 512), y = ix2 r u := ⟨y 0, y 1, eq_ix2 y⟩
  obtain ⟨-, -, -, -, -, -, -, -, -, -, ⟨e0, e1⟩, -⟩ := idx_facts t
  have he : ((cfg0.win 10).blk t).view.emb (ix2 r u) = (ix2 (rowAt t r) u : S8192x512.Idx) := by
    funext a; apply Fin.ext
    match a with
    | ⟨0, _⟩ => show win0_10.index t (0 : Fin 2) * 128 + 1 * r.val = 128 * t.val + r.val; omega
    | ⟨1, _⟩ => show win0_10.index t (1 : Fin 2) * 512 + 1 * u.val = u.val; omega
  show _ = newTotals m c (((cfg0.win 10).blk t).view.emb (ix2 r u))
  rw [he]
  refine (pay7_apply (iblk m c 0 t) (iblk m c 1 t) (iblk m c 2 t) (iblk m c 3 t) (iblk m c 4 t) (iblk m c 5 t) (iblk m c 6 t) (iblk m c 7 t) (iblk m c 8 t) (iblk m c 9 t) r u).trans ?_
  rw [blk_inputs m c t r, blk_state m c t r, blk_Wr m c t, blk_br m c t, blk_Ws m c t, blk_bs m c t, blk_Wd m c t, blk_bd m c t, blk_tau m c t, blk_decay m c t]
  rfl

/-! ## The blocks tile the arrays -/

theorem mem_blk11 (t : Fin cfg0.N) (i : S8192x512x8.Idx) :
    i ∈ ((cfg0.win 11).blk t).view.set ↔ ∀ a : Fin 3, win0_11.index t a * S128x512x8.size a ≤ (i a).val ∧ (i a).val < win0_11.index t a * S128x512x8.size a + S128x512x8.size a := by
  show i ∈ ((View.whole main_v9_1).slice (win0_11.rect t)).set ↔ _
  rw [View.set_slice_whole, Rect.mem_set_unit]
  exact Iff.rfl

theorem mem_blk10 (t : Fin cfg0.N) (i : S8192x512.Idx) :
    i ∈ ((cfg0.win 10).blk t).view.set ↔ ∀ a : Fin 2, win0_10.index t a * S128x512.size a ≤ (i a).val ∧ (i a).val < win0_10.index t a * S128x512.size a + S128x512.size a := by
  show i ∈ ((View.whole main_v9_0).slice (win0_10.rect t)).set ↔ _
  rw [View.set_slice_whole, Rect.mem_set_unit]
  exact Iff.rfl

/-- Row `b` lies in the block of point `b / 128`. -/
theorem cover11 (i : S8192x512x8.Idx) : ∃ t : Fin cfg0.N, (cfg0.win 11).flush t = true ∧ i ∈ ((cfg0.win 11).blk t).view.set := by
  have hi0 : (i 0).val < 8192 := (i 0).isLt
  have hi1 : (i 1).val < 512 := (i 1).isLt
  have hi2 : (i 2).val < 8 := (i 2).isLt
  have hN : (i 0).val / 128 < cfg0.N := by rw [show cfg0.N = 64 from N_0]; omega
  obtain ⟨-, -, -, -, -, -, -, -, -, -, -, ⟨e0, e1, e2⟩⟩ := idx_facts ⟨(i 0).val / 128, hN⟩
  refine ⟨⟨(i 0).val / 128, hN⟩, flush0_11 _, ?_⟩
  rw [mem_blk11]
  intro a
  match a with
  | ⟨0, _⟩ => show win0_11.index ⟨(i 0).val / 128, hN⟩ (0 : Fin 3) * 128 ≤ (i 0).val ∧ (i 0).val < win0_11.index ⟨(i 0).val / 128, hN⟩ (0 : Fin 3) * 128 + 128; rw [e0]; show (i 0).val / 128 * 128 ≤ (i 0).val ∧ (i 0).val < (i 0).val / 128 * 128 + 128; omega
  | ⟨1, _⟩ => show win0_11.index ⟨(i 0).val / 128, hN⟩ (1 : Fin 3) * 512 ≤ (i 1).val ∧ (i 1).val < win0_11.index ⟨(i 0).val / 128, hN⟩ (1 : Fin 3) * 512 + 512; omega
  | ⟨2, _⟩ => show win0_11.index ⟨(i 0).val / 128, hN⟩ (2 : Fin 3) * 8 ≤ (i 2).val ∧ (i 2).val < win0_11.index ⟨(i 0).val / 128, hN⟩ (2 : Fin 3) * 8 + 8; omega

theorem cover10 (i : S8192x512.Idx) : ∃ t : Fin cfg0.N, (cfg0.win 10).flush t = true ∧ i ∈ ((cfg0.win 10).blk t).view.set := by
  have hi0 : (i 0).val < 8192 := (i 0).isLt
  have hi1 : (i 1).val < 512 := (i 1).isLt
  have hN : (i 0).val / 128 < cfg0.N := by rw [show cfg0.N = 64 from N_0]; omega
  obtain ⟨-, -, -, -, -, -, -, -, -, -, ⟨e0, e1⟩, -⟩ := idx_facts ⟨(i 0).val / 128, hN⟩
  refine ⟨⟨(i 0).val / 128, hN⟩, flush0_10 _, ?_⟩
  rw [mem_blk10]
  intro a
  match a with
  | ⟨0, _⟩ => show win0_10.index ⟨(i 0).val / 128, hN⟩ (0 : Fin 2) * 128 ≤ (i 0).val ∧ (i 0).val < win0_10.index ⟨(i 0).val / 128, hN⟩ (0 : Fin 2) * 128 + 128; rw [e0]; show (i 0).val / 128 * 128 ≤ (i 0).val ∧ (i 0).val < (i 0).val / 128 * 128 + 128; omega
  | ⟨1, _⟩ => show win0_10.index ⟨(i 0).val / 128, hN⟩ (1 : Fin 2) * 512 ≤ (i 1).val ∧ (i 1).val < win0_10.index ⟨(i 0).val / 128, hN⟩ (1 : Fin 2) * 512 + 512; omega

/-! ## The arrays after the region, and after the host operation that follows it -/

theorem final11 (c : Dev nD) : (dats m 0 c).arrAt 11 cfg0.N = newBuckets m c :=
  (dats m 0 c).arrAt_eq_of_cover 11 (newBuckets m c) (fun t _ => flushed11_eq m c t) cover11

theorem final10 (c : Dev nD) : (dats m 0 c).arrAt 10 cfg0.N = newTotals m c :=
  (dats m 0 c).arrAt_eq_of_cover 10 (newTotals m c) (fun t _ => flushed10_eq m c t) cover10

/-- The second result: the new bucket values with the bucket axis folded back into the row. -/
theorem tail_v10 (c : Dev nD) :
    Pipeline.afterTail₀ cfgs (dats m) 0 (V0 m) [hostOps1] c main_v10
      = shapeCast S8192x4096 (newBuckets m c) shapeCasts_S8192x512x8_S8192x4096 := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.tc.devRef main_v9_1) = newBuckets m c :=
    (Pipeline.withArrays_arr spec0 launch0.win.arr_inj c _ _ 11).trans (final11 m c)
  rw [hw]
  rfl

/-! ## The run -/

/-- Every weakly fair execution of the kernel's program terminates with the first result at the new unit totals, the
    second at the new bucket values folded back into rows of 4096, and the arguments unchanged. -/
theorem run : θ_run defs (onTc (τ := τ) (main (F := Ideal))) ⟨m, fun _ => 0, ρ⟩ fun r => ∀ c : Dev nD,
      r.2.mem ((c : Thread nD τ).loc main_v9_0) = newTotals m c
      ∧ r.2.mem ((c : Thread nD τ).loc main_v10) = shapeCast S8192x4096 (newBuckets m c) shapeCasts_S8192x512x8_S8192x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 10).trans (final10 m c),
      ((h c).2 main_v10 (Pipeline.mem_restRefs_of main_v10 (by decide) (by decide))).trans (tail_v10 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Arrays

end
-- ==== Proof.RefTerms.lean ====
/-
  The reference's intermediate values as functions of its eight argument arrays: one definition per value of the
  host program, built from the same library operations in the same order, so that the value of each result buffer
  after the program has run is one of these terms.  The two gates share their text: `negSqT` is the negated squared
  distance of an affine image of the fused rows from the time constants, `softmaxT` the softmax along the bucket axis.
-/
import proofs.«135037_j19593640804384_1_alg».proof.Proof.Gen.ReferenceIdeal

noncomputable section

namespace Cert.ReferenceIdeal.Terms

open Cert.ReferenceIdeal Cert.ReferenceIdeal.Gen Idealize.ShloMosaic

variable {F : FTy → Type} [FloatOps F]

/-- The eight time constants. -/
def tauT : FVec F S8 .f32 := fun i => FloatOps.ofBits .f32 (lit0 (S8.rowMajor i))
/-- The eight decay factors. -/
def decayT : FVec F S8 .f32 := fun i => FloatOps.ofBits .f32 (lit1 (S8.rowMajor i))

/-- A table of eight values laid along the bucket axis of every (row, unit). -/
def alongBuckets (t : FVec F S8 .f32) : FVec F S8192x512x8 .f32 :=
  broadcastInDim S8192x512x8 ![0, 1, 2] bcast_S1x1x8_S8192x512x8_0_1_2 (broadcastInDim S1x1x8 ![2] bcast_S8_S1x1x8_2 t)

/-- A per-(row, unit) value repeated along the bucket axis. -/
def acrossBuckets (v : FVec F S8192x512 .f32) : FVec F S8192x512x8 .f32 :=
  broadcastInDim S8192x512x8 ![0, 1, 2] bcast_S8192x512x1_S8192x512x8_0_1_2 (broadcastInDim S8192x512x1 ![0, 1] bcast_S8192x512_S8192x512x1_0_1 v)

/-- The sum along the bucket axis. -/
def sumBuckets (v : FVec F S8192x512x8 .f32) : FVec F S8192x512 .f32 :=
  Host.reduceAdd v (constant S_ .f32 0x00000000#32) reducesTo_S8192x512x8_S8192x512_d2 h_S_

/-- The state with its bucket axis split off. -/
def stateT (a1 : FVec F S8192x4096 .f32) : FVec F S8192x512x8 .f32 :=
  shapeCast S8192x512x8 a1 shapeCasts_S8192x4096_S8192x512x8

/-- A row of inputs followed by 512 per-unit values. -/
def joinT (a0 : FVec F S8192x256 .f32) (v : FVec F S8192x512 .f32) : FVec F S8192x768 .f32 :=
  concatenate S8192x768 1 [⟨S8192x256, a0⟩, ⟨S8192x512, v⟩] concatenates_S8192x256_S8192x512_S8192x768_d1

/-- The inputs followed by the units' totals. -/
def fusedT (a0 : FVec F S8192x256 .f32) (a1 : FVec F S8192x4096 .f32) : FVec F S8192x768 .f32 :=
  joinT a0 (sumBuckets (stateT a1))

/-- The affine image of rows of 768 under a 768 × 4096 matrix and a bias, with the bucket axis split off. -/
def affine4096T (v : FVec F S8192x768 .f32) (W : FVec F S768x4096 .f32) (b : FVec F S4096 .f32) : FVec F S8192x512x8 .f32 :=
  shapeCast S8192x512x8
    (addf (Host.dotGeneral dot_S8192x768_S768x4096_S8192x4096_1_0_0_1_n_n none v W)
      (broadcastInDim S8192x4096 ![0, 1] bcast_S1x4096_S8192x4096_0_1 (broadcastInDim S1x4096 ![1] bcast_S4096_S1x4096_1 b)))
    shapeCasts_S8192x4096_S8192x512x8

/-- Its distance from the time constants. -/
def centeredT (v : FVec F S8192x768 .f32) (W : FVec F S768x4096 .f32) (b : FVec F S4096 .f32) : FVec F S8192x512x8 .f32 :=
  subf (affine4096T v W b) (alongBuckets tauT)

/-- The negated squared distance. -/
def negSqT (v : FVec F S8192x768 .f32) (W : FVec F S768x4096 .f32) (b : FVec F S4096 .f32) : FVec F S8192x512x8 .f32 :=
  Host.negf (mulf (centeredT v W b) (centeredT v W b))

/-- The peak along the bucket axis, floored at `-∞` once more. -/
def peakT (a : FVec F S8192x512x8 .f32) : FVec F S8192x512 .f32 :=
  maximumf (broadcastInDim S8192x512 ![] bcast_S_S8192x512 (constant S_ .f32 0xFF800000#32))
    (Host.reduce FloatOps.maximumf a (constant S_ .f32 0xFF800000#32) reducesTo_S8192x512x8_S8192x512_d2 h_S_)

/-- The exponentials of the distances from the peak. -/
def expT (a : FVec F S8192x512x8 .f32) : FVec F S8192x512x8 .f32 :=
  Host.exp (subf a (acrossBuckets (peakT a)))

/-- The softmax along the bucket axis. -/
def softmaxT (a : FVec F S8192x512x8 .f32) : FVec F S8192x512x8 .f32 :=
  Host.divf (expT a) (acrossBuckets (sumBuckets (expT a)))

section Args

variable (a0 : FVec F S8192x256 .f32) (a1 : FVec F S8192x4096 .f32) (a2 : FVec F S768x4096 .f32) (a3 : FVec F S4096 .f32)
  (a4 : FVec F S768x4096 .f32) (a5 : FVec F S4096 .f32) (a6 : FVec F S768x512 .f32) (a7 : FVec F S512 .f32)

/-- The retrieval gate. -/
def retrievalGateT : FVec F S8192x512x8 .f32 := softmaxT (negSqT (fusedT a0 a1) a2 a3)

/-- The retrieved values. -/
def retrievedT : FVec F S8192x512 .f32 := sumBuckets (mulf (retrievalGateT a0 a1 a2 a3) (stateT a1))

/-- The detected signals. -/
def signalT : FVec F S8192x512 .f32 :=
  Host.tanh (addf (Host.dotGeneral dot_S8192x768_S768x512_S8192x512_1_0_0_1_n_n none (joinT a0 (retrievedT a0 a1 a2 a3)) a6)
    (broadcastInDim S8192x512 ![0, 1] bcast_S1x512_S8192x512_0_1 (broadcastInDim S1x512 ![1] bcast_S512_S1x512_1 a7)))

/-- The storage gate. -/
def storageGateT : FVec F S8192x512x8 .f32 := softmaxT (negSqT (fusedT a0 a1) a4 a5)

/-- The new bucket values. -/
def nextT : FVec F S8192x512x8 .f32 :=
  mulf
    (addf
      (mulf (subf (broadcastInDim S8192x512x8 ![] bcast_S_S8192x512x8 (constant S_ .f32 0x3F800000#32)) (storageGateT a0 a1 a4 a5)) (stateT a1))
      (mulf (storageGateT a0 a1 a4 a5) (acrossBuckets (signalT a0 a1 a2 a3 a6 a7))))
    (alongBuckets decayT)

/-- The first result: the units' new totals. -/
def out0 : FVec F S8192x512 .f32 := sumBuckets (nextT a0 a1 a2 a3 a4 a5 a6 a7)

/-- The second result: the new bucket values with the bucket axis folded back into the row. -/
def out1 : FVec F S8192x4096 .f32 := shapeCast S8192x4096 (nextT a0 a1 a2 a3 a4 a5 a6 a7) shapeCasts_S8192x512x8_S8192x4096

end Args

end Cert.ReferenceIdeal.Terms

end
-- ==== Proof.RefRun.lean ====
/-
  The reference's run, written out: its 77 host operations as a list, cut into seven stretches at the values the
  specification names (the two tables and the fused rows; a gate's negated squared distances; its softmax; the
  retrieved values and the signals; the second gate the same way; the new bucket values and the two results).
  Each stretch is read back on its own: from any contents of the buffers, what its result buffers hold afterwards
  in terms of what its operand buffers held before, and that the buffers it does not write keep their contents.
  Composed in order the seven give the two result buffers as `Terms.out0` and `Terms.out1` of the arguments' launch
  contents; `run` states that of every weakly fair execution of @main.
-/
import proofs.«135037_j19593640804384_1_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in seven stretches -/

/-- The two tables, the state with its bucket axis split off, and the fused rows (operations 1 … 6). -/
abbrev seg0 : List (HloOp τ sig (Elt F)) :=
  [ nullary main_cst (fun i => FloatOps.ofBits .f32 (lit0 (S8.rowMajor i))),
    nullary main_cst_0 (fun i => FloatOps.ofBits .f32 (lit1 (S8.rowMajor i))),
    reshape main_arg1 main_v0 rfl shapeCasts_S8192x4096_S8192x512x8,
    nullary main_cst_1 (constant S_ .f32 0x00000000#32),
    binary main_v0 main_cst_1 main_v1 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    binary main_arg0 main_v1 main_v2 ((fun a b => concatenate S8192x768 1 [⟨S8192x256, a⟩, ⟨S8192x512, b⟩] concatenates_S8192x256_S8192x512_S8192x768_d1) : (⟨S8192x256, .f32⟩ : BufTy).Contents (Elt F) → (⟨S8192x512, .f32⟩ : BufTy).Contents (Elt F) → (⟨S8192x768, .f32⟩ : BufTy).Contents (Elt F)) ]

/-- The retrieval gate's negated squared distances (operations 7 … 16). -/
abbrev seg1 : List (HloOp τ sig (Elt F)) :=
  [ binary main_v2 main_arg2 main_v3 ((fun l r => Host.dotGeneral dot_S8192x768_S768x4096_S8192x4096_1_0_0_1_n_n none l r) : (⟨S8192x768, .f32⟩ : BufTy).Contents (Elt F) → (⟨S768x4096, .f32⟩ : BufTy).Contents (Elt F) → (⟨S8192x4096, .f32⟩ : BufTy).Contents (Elt F)),
    unary main_arg3 main_v4 (broadcastInDim S1x4096 ![1] bcast_S4096_S1x4096_1 : (⟨S4096, .f32⟩ : BufTy).Contents (Elt F) → (⟨S1x4096, .f32⟩ : BufTy).Contents (Elt F)),
    unary main_v4 main_v5 (broadcastInDim S8192x4096 ![0, 1] bcast_S1x4096_S8192x4096_0_1 : (⟨S1x4096, .f32⟩ : BufTy).Contents (Elt F) → (⟨S8192x4096, .f32⟩ : BufTy).Contents (Elt F)),
    binary main_v3 main_v5 main_v6 (addf : (⟨S8192x4096, .f32⟩ : BufTy).Contents (Elt F) → (⟨S8192x4096, .f32⟩ : BufTy).Contents (Elt F) → (⟨S8192x4096, .f32⟩ : BufTy).Contents (Elt F)),
    reshape main_v6 main_v7 rfl shapeCasts_S8192x4096_S8192x512x8,
    unary main_cst main_v8 (broadcastInDim S1x1x8 ![2] bcast_S8_S1x1x8_2 : (⟨S8, .f32⟩ : BufTy).Contents (Elt F) → (⟨S1x1x8, .f32⟩ : BufTy).Contents (Elt F)),
    unary main_v8 main_v9 (broadcastInDim S8192x512x8 ![0, 1, 2] bcast_S1x1x8_S8192x512x8_0_1_2 : (⟨S1x1x8, .f32⟩ : BufTy).Contents (Elt F) → (⟨S8192x512x8, .f32⟩ : BufTy).Contents (Elt F)),
    binary main_v7 main_v9 main_v10 (subf : (⟨S8192x512x8, .f32⟩ : BufTy).Contents (Elt F) → (⟨S8192x512x8, .f32⟩ : BufTy).Contents (Elt F) → (⟨S8192x512x8, .f32⟩ : BufTy).Contents (Elt F)),
    binary main_v10 main_v10 main_v11 (mulf : (⟨S8192x512x8, .f32⟩ : BufTy).Contents (Elt F) → (⟨S8192x512x8, .f32⟩ : BufTy).Contents (Elt F) → (⟨S8192x512x8, .f32⟩ : BufTy).Contents (Elt F)),
    unary main_v11 main_v12 (Host.negf : (⟨S8192x512x8, .f32⟩ : BufTy).Contents (Elt F) → (⟨S8192x512x8, .f32⟩ : BufTy).Contents (Elt F)) ]

/-- The softmax of the retrieval gate (operations 17 … 30). -/
abbrev seg2 : List (HloOp τ sig (Elt F)) :=
  [ nullary main_cst_2 (constant S_ .f32 0xFF800000#32),
    binary main_v12 main_cst_2 main_v13 ((fun x v => Host.reduce FloatOps.maximumf x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    nullary main_cst_3 (constant S_ .f32 0xFF800000#32),
    unary main_cst_3 main_v14 (broadcastInDim S8192x512 ![] bcast_S_S8192x512 : (⟨S_, .f32⟩ : BufTy).Contents (Elt F) → (⟨S8192x512, .f32⟩ : BufTy).Contents (Elt F)),
    binary main_v14 main_v13 main_v15 (maximumf : (⟨S8192x512, .f32⟩ : BufTy).Contents (Elt F) → (⟨S8192x512, .f32⟩ : BufTy).Contents (Elt F) → (⟨S8192x512, .f32⟩ : BufTy).Contents (Elt F)),
    unary main_v15 main_v16 (broadcastInDim S8192x512x1 ![0, 1] bcast_S8192x512_S8192x512x1_0_1 : (⟨S8192x512, .f32⟩ : BufTy).Contents (Elt F) → (⟨S8192x512x1, .f32⟩ : BufTy).Contents (Elt F)),
    unary main_v16 main_v17 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v12 main_v17 main_v18 (subf : (⟨S8192x512x8, .f32⟩ : BufTy).Contents (Elt F) → (⟨S8192x512x8, .f32⟩ : BufTy).Contents (Elt F) → (⟨S8192x512x8, .f32⟩ : BufTy).Contents (Elt F)),
    unary main_v18 main_v19 (Host.exp : (⟨S8192x512x8, .f32⟩ : BufTy).Contents (Elt F) → (⟨S8192x512x8, .f32⟩ : BufTy).Contents (Elt F)),
    nullary main_cst_4 (constant S_ .f32 0x00000000#32),
    binary main_v19 main_cst_4 main_v20 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    unary main_v20 main_v21 (broadcastInDim S8192x512x1 ![0, 1] bcast_S8192x512_S8192x512x1_0_1 : (⟨S8192x512, .f32⟩ : BufTy).Contents (Elt F) → (⟨S8192x512x1, .f32⟩ : BufTy).Contents (Elt F)),
    unary main_v21 main_v22 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v19 main_v22 main_v23 (Host.divf : (⟨S8192x512x8, .f32⟩ : BufTy).Contents (Elt F) → (⟨S8192x512x8, .f32⟩ : BufTy).Contents (Elt F) → (⟨S8192x512x8, .f32⟩ : BufTy).Contents (Elt F)) ]

/-- The retrieved values and the detected signals (operations 31 … 40). -/
abbrev seg3 : List (HloOp τ sig (Elt F)) :=
  [ binary main_v23 main_v0 main_v24 (mulf : (⟨S8192x512x8, .f32⟩ : BufTy).Contents (Elt F) → (⟨S8192x512x8, .f32⟩ : BufTy).Contents (Elt F) → (⟨S8192x512x8, .f32⟩ : BufTy).Contents (Elt F)),
    nullary main_cst_5 (constant S_ .f32 0x00000000#32),
    binary main_v24 main_cst_5 main_v25 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    binary main_arg0 main_v25 main_v26 ((fun a b => concatenate S8192x768 1 [⟨S8192x256, a⟩, ⟨S8192x512, b⟩] concatenates_S8192x256_S8192x512_S8192x768_d1) : (⟨S8192x256, .f32⟩ : BufTy).Contents (Elt F) → (⟨S8192x512, .f32⟩ : BufTy).Contents (Elt F) → (⟨S8192x768, .f32⟩ : BufTy).Contents (Elt F)),
    binary main_v26 main_arg6 main_v27 ((fun l r => Host.dotGeneral dot_S8192x768_S768x512_S8192x512_1_0_0_1_n_n none l r) : (⟨S8192x768, .f32⟩ : BufTy).Contents (Elt F) → (⟨S768x512, .f32⟩ : BufTy).Contents (Elt F) → (⟨S8192x512, .f32⟩ : BufTy).Contents (Elt F)),
    unary main_arg7 main_v28 (broadcastInDim S1x512 ![1] bcast_S512_S1x512_1 : (⟨S512, .f32⟩ : BufTy).Contents (Elt F) → (⟨S1x512, .f32⟩ : BufTy).Contents (Elt F)),
    unary main_v28 main_v29 (broadcastInDim S8192x512 ![0, 1] bcast_S1x512_S8192x512_0_1 : (⟨S1x512, .f32⟩ : BufTy).Contents (Elt F) → (⟨S8192x512, .f32⟩ : BufTy).Contents (Elt F)),
    binary main_v27 main_v29 main_v30 (addf : (⟨S8192x512, .f32⟩ : BufTy).Contents (Elt F) → (⟨S8192x512, .f32⟩ : BufTy).Contents (Elt F) → (⟨S8192x512, .f32⟩ : BufTy).Contents (Elt F)),
    unary main_v30 main_v31 (Host.tanh : (⟨S8192x512, .f32⟩ : BufTy).Contents (Elt F) → (⟨S8192x512, .f32⟩ : BufTy).Contents (Elt F)),
    unary main_v31 main_v32 (broadcastInDim S8192x512x1 ![0, 1] bcast_S8192x512_S8192x512x1_0_1 : (⟨S8192x512, .f32⟩ : BufTy).Contents (Elt F) → (⟨S8192x512x1, .f32⟩ : BufTy).Contents (Elt F)) ]

/-- The storage gate's negated squared distances (operations 41 … 50). -/
abbrev seg4 : List (HloOp τ sig (Elt F)) :=
  [ binary main_v2 main_arg4 main_v33 ((fun l r => Host.dotGeneral dot_S8192x768_S768x4096_S8192x4096_1_0_0_1_n_n none l r) : (⟨S8192x768, .f32⟩ : BufTy).Contents (Elt F) → (⟨S768x4096, .f32⟩ : BufTy).Contents (Elt F) → (⟨S8192x4096, .f32⟩ : BufTy).Contents (Elt F)),
    unary main_arg5 main_v34 (broadcastInDim S1x4096 ![1] bcast_S4096_S1x4096_1 : (⟨S4096, .f32⟩ : BufTy).Contents (Elt F) → (⟨S1x4096, .f32⟩ : BufTy).Contents (Elt F)),
    unary main_v34 main_v35 (broadcastInDim S8192x4096 ![0, 1] bcast_S1x4096_S8192x4096_0_1 : (⟨S1x4096, .f32⟩ : BufTy).Contents (Elt F) → (⟨S8192x4096, .f32⟩ : BufTy).Contents (Elt F)),
    binary main_v33 main_v35 main_v36 (addf : (⟨S8192x4096, .f32⟩ : BufTy).Contents (Elt F) → (⟨S8192x4096, .f32⟩ : BufTy).Contents (Elt F) → (⟨S8192x4096, .f32⟩ : BufTy).Contents (Elt F)),
    reshape main_v36 main_v37 rfl shapeCasts_S8192x4096_S8192x512x8,
    unary main_cst main_v38 (broadcastInDim S1x1x8 ![2] bcast_S8_S1x1x8_2 : (⟨S8, .f32⟩ : BufTy).Contents (Elt F) → (⟨S1x1x8, .f32⟩ : BufTy).Contents (Elt F)),
    unary main_v38 main_v39 (broadcastInDim S8192x512x8 ![0, 1, 2] bcast_S1x1x8_S8192x512x8_0_1_2 : (⟨S1x1x8, .f32⟩ : BufTy).Contents (Elt F) → (⟨S8192x512x8, .f32⟩ : BufTy).Contents (Elt F)),
    binary main_v37 main_v39 main_v40 (subf : (⟨S8192x512x8, .f32⟩ : BufTy).Contents (Elt F) → (⟨S8192x512x8, .f32⟩ : BufTy).Contents (Elt F) → (⟨S8192x512x8, .f32⟩ : BufTy).Contents (Elt F)),
    binary main_v40 main_v40 main_v41 (mulf : (⟨S8192x512x8, .f32⟩ : BufTy).Contents (Elt F) → (⟨S8192x512x8, .f32⟩ : BufTy).Contents (Elt F) → (⟨S8192x512x8, .f32⟩ : BufTy).Contents (Elt F)),
    unary main_v41 main_v42 (Host.negf : (⟨S8192x512x8, .f32⟩ : BufTy).Contents (Elt F) → (⟨S8192x512x8, .f32⟩ : BufTy).Contents (Elt F)) ]

/-- The softmax of the storage gate (operations 51 … 64). -/
abbrev seg5 : List (HloOp τ sig (Elt F)) :=
  [ nullary main_cst_6 (constant S_ .f32 0xFF800000#32),
    binary main_v42 main_cst_6 main_v43 ((fun x v => Host.reduce FloatOps.maximumf x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    nullary main_cst_7 (constant S_ .f32 0xFF800000#32),
    unary main_cst_7 main_v44 (broadcastInDim S8192x512 ![] bcast_S_S8192x512 : (⟨S_, .f32⟩ : BufTy).Contents (Elt F) → (⟨S8192x512, .f32⟩ : BufTy).Contents (Elt F)),
    binary main_v44 main_v43 main_v45 (maximumf : (⟨S8192x512, .f32⟩ : BufTy).Contents (Elt F) → (⟨S8192x512, .f32⟩ : BufTy).Contents (Elt F) → (⟨S8192x512, .f32⟩ : BufTy).Contents (Elt F)),
    unary main_v45 main_v46 (broadcastInDim S8192x512x1 ![0, 1] bcast_S8192x512_S8192x512x1_0_1 : (⟨S8192x512, .f32⟩ : BufTy).Contents (Elt F) → (⟨S8192x512x1, .f32⟩ : BufTy).Contents (Elt F)),
    unary main_v46 main_v47 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v42 main_v47 main_v48 (subf : (⟨S8192x512x8, .f32⟩ : BufTy).Contents (Elt F) → (⟨S8192x512x8, .f32⟩ : BufTy).Contents (Elt F) → (⟨S8192x512x8, .f32⟩ : BufTy).Contents (Elt F)),
    unary main_v48 main_v49 (Host.exp : (⟨S8192x512x8, .f32⟩ : BufTy).Contents (Elt F) → (⟨S8192x512x8, .f32⟩ : BufTy).Contents (Elt F)),
    nullary main_cst_8 (constant S_ .f32 0x00000000#32),
    binary main_v49 main_cst_8 main_v50 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    unary main_v50 main_v51 (broadcastInDim S8192x512x1 ![0, 1] bcast_S8192x512_S8192x512x1_0_1 : (⟨S8192x512, .f32⟩ : BufTy).Contents (Elt F) → (⟨S8192x512x1, .f32⟩ : BufTy).Contents (Elt F)),
    unary main_v51 main_v52 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v49 main_v52 main_v53 (Host.divf : (⟨S8192x512x8, .f32⟩ : BufTy).Contents (Elt F) → (⟨S8192x512x8, .f32⟩ : BufTy).Contents (Elt F) → (⟨S8192x512x8, .f32⟩ : BufTy).Contents (Elt F)) ]

/-- The new bucket values and the two results (operations 65 … 77). -/
abbrev seg6 : List (HloOp τ sig (Elt F)) :=
  [ nullary main_cst_9 (constant S_ .f32 0x3F800000#32),
    unary main_cst_9 main_v54 (broadcastInDim S8192x512x8 ![] bcast_S_S8192x512x8 : (⟨S_, .f32⟩ : BufTy).Contents (Elt F) → (⟨S8192x512x8, .f32⟩ : BufTy).Contents (Elt F)),
    binary main_v54 main_v53 main_v55 (subf : (⟨S8192x512x8, .f32⟩ : BufTy).Contents (Elt F) → (⟨S8192x512x8, .f32⟩ : BufTy).Contents (Elt F) → (⟨S8192x512x8, .f32⟩ : BufTy).Contents (Elt F)),
    binary main_v55 main_v0 main_v56 (mulf : (⟨S8192x512x8, .f32⟩ : BufTy).Contents (Elt F) → (⟨S8192x512x8, .f32⟩ : BufTy).Contents (Elt F) → (⟨S8192x512x8, .f32⟩ : BufTy).Contents (Elt F)),
    unary main_v32 main_v57 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v53 main_v57 main_v58 (mulf : (⟨S8192x512x8, .f32⟩ : BufTy).Contents (Elt F) → (⟨S8192x512x8, .f32⟩ : BufTy).Contents (Elt F) → (⟨S8192x512x8, .f32⟩ : BufTy).Contents (Elt F)),
    binary main_v56 main_v58 main_v59 (addf : (⟨S8192x512x8, .f32⟩ : BufTy).Contents (Elt F) → (⟨S8192x512x8, .f32⟩ : BufTy).Contents (Elt F) → (⟨S8192x512x8, .f32⟩ : BufTy).Contents (Elt F)),
    unary main_cst_0 main_v60 (broadcastInDim S1x1x8 ![2] bcast_S8_S1x1x8_2 : (⟨S8, .f32⟩ : BufTy).Contents (Elt F) → (⟨S1x1x8, .f32⟩ : BufTy).Contents (Elt F)),
    unary main_v60 main_v61 (broadcastInDim S8192x512x8 ![0, 1, 2] bcast_S1x1x8_S8192x512x8_0_1_2 : (⟨S1x1x8, .f32⟩ : BufTy).Contents (Elt F) → (⟨S8192x512x8, .f32⟩ : BufTy).Contents (Elt F)),
    binary main_v59 main_v61 main_v62 (mulf : (⟨S8192x512x8, .f32⟩ : BufTy).Contents (Elt F) → (⟨S8192x512x8, .f32⟩ : BufTy).Contents (Elt F) → (⟨S8192x512x8, .f32⟩ : BufTy).Contents (Elt F)),
    nullary main_cst_10 (constant S_ .f32 0x00000000#32),
    binary main_v62 main_cst_10 main_v63 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    reshape main_v62 main_v64 rfl shapeCasts_S8192x512x8_S8192x4096 ]

/-- @main's 77 operations, in order. -/
abbrev ops : List (HloOp τ sig (Elt F)) := seg0 ++ (seg1 ++ (seg2 ++ (seg3 ++ (seg4 ++ (seg5 ++ seg6)))))

set_option maxRecDepth 100000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem seg0_sub : (seg0 : List (HloOp τ sig (Elt F))).Forall fun op => op.bufs ⊆ tcRefs τ sig :=
  ⟨nullary_bufs_sub .., nullary_bufs_sub .., reshape_bufs_sub .., nullary_bufs_sub .., binary_bufs_sub .., binary_bufs_sub ..⟩
theorem seg1_sub : (seg1 : List (HloOp τ sig (Elt F))).Forall fun op => op.bufs ⊆ tcRefs τ sig :=
  ⟨binary_bufs_sub .., unary_bufs_sub .., unary_bufs_sub .., binary_bufs_sub .., reshape_bufs_sub .., unary_bufs_sub .., unary_bufs_sub .., binary_bufs_sub .., binary_bufs_sub .., unary_bufs_sub ..⟩
theorem seg2_sub : (seg2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem seg3_sub : (seg3 : List (HloOp τ sig (Elt F))).Forall fun op => op.bufs ⊆ tcRefs τ sig :=
  ⟨binary_bufs_sub .., nullary_bufs_sub .., binary_bufs_sub .., binary_bufs_sub .., binary_bufs_sub .., unary_bufs_sub .., unary_bufs_sub .., binary_bufs_sub .., unary_bufs_sub .., unary_bufs_sub ..⟩
theorem seg4_sub : (seg4 : List (HloOp τ sig (Elt F))).Forall fun op => op.bufs ⊆ tcRefs τ sig :=
  ⟨binary_bufs_sub .., unary_bufs_sub .., unary_bufs_sub .., binary_bufs_sub .., reshape_bufs_sub .., unary_bufs_sub .., unary_bufs_sub .., binary_bufs_sub .., binary_bufs_sub .., unary_bufs_sub ..⟩
theorem seg5_sub : (seg5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem seg6_sub : (seg6 : List (HloOp τ sig (Elt F))).Forall fun op => op.bufs ⊆ tcRefs τ sig :=
  ⟨nullary_bufs_sub .., unary_bufs_sub .., binary_bufs_sub .., binary_bufs_sub .., unary_bufs_sub .., binary_bufs_sub .., binary_bufs_sub .., unary_bufs_sub .., unary_bufs_sub .., binary_bufs_sub .., nullary_bufs_sub .., binary_bufs_sub .., reshape_bufs_sub ..⟩

theorem ops_sub : (ops : List (HloOp τ sig (Elt F))).Forall fun op => op.bufs ⊆ tcRefs τ sig :=
  List.forall_append.mpr ⟨seg0_sub, List.forall_append.mpr ⟨seg1_sub, List.forall_append.mpr ⟨seg2_sub,
    List.forall_append.mpr ⟨seg3_sub, List.forall_append.mpr ⟨seg4_sub, List.forall_append.mpr ⟨seg5_sub, seg6_sub⟩⟩⟩⟩⟩⟩

/-- Two lines of operations one after the other: the second runs from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The stretches read back

`W` is what the buffers hold when a stretch begins; `a0 … a7` are the argument arrays the named values are terms of. -/

section Stretches

variable (W : Valuation τ sig (Elt F))
variable {a0 : FVec F S8192x256 .f32} {a1 : FVec F S8192x4096 .f32} {a2 : FVec F S768x4096 .f32} {a3 : FVec F S4096 .f32}
  {a4 : FVec F S768x4096 .f32} {a5 : FVec F S4096 .f32} {a6 : FVec F S768x512 .f32} {a7 : FVec F S512 .f32}

/-! ### Operations 1 … 6 -/

theorem seg0_tau : after seg0 W main_cst = (Terms.tauT : FVec F S8 .f32) := by
  after_results; rfl
theorem seg0_decay : after seg0 W main_cst_0 = (Terms.decayT : FVec F S8 .f32) := by
  after_results; rfl
theorem seg0_state (h1 : W main_arg1 = a1) : after seg0 W main_v0 = Terms.stateT a1 := by
  after_results; rw [h1]; rfl
theorem seg0_fused (h0 : W main_arg0 = a0) (h1 : W main_arg1 = a1) : after seg0 W main_v2 = Terms.fusedT a0 a1 := by
  after_results; rw [h0, h1]; rfl
theorem seg0_keep :
    after seg0 W main_arg0 = W main_arg0
    ∧ after seg0 W main_arg2 = W main_arg2
    ∧ after seg0 W main_arg3 = W main_arg3
    ∧ after seg0 W main_arg4 = W main_arg4
    ∧ after seg0 W main_arg5 = W main_arg5
    ∧ after seg0 W main_arg6 = W main_arg6
    ∧ after seg0 W main_arg7 = W main_arg7 := by
  refine ⟨?_, ?_, ?_, ?_, ?_, ?_, ?_⟩ <;> after_results

/-! ### Operations 7 … 16 -/

theorem seg1_negSq (hf : W main_v2 = Terms.fusedT a0 a1) (h2 : W main_arg2 = a2) (h3 : W main_arg3 = a3)
    (ht : W main_cst = (Terms.tauT : FVec F S8 .f32)) :
    after seg1 W main_v12 = Terms.negSqT (Terms.fusedT a0 a1) a2 a3 := by
  after_results; rw [hf, h2, h3, ht]; rfl
theorem seg1_keep :
    after seg1 W main_cst = W main_cst
    ∧ after seg1 W main_cst_0 = W main_cst_0
    ∧ after seg1 W main_v0 = W main_v0
    ∧ after seg1 W main_v2 = W main_v2
    ∧ after seg1 W main_arg0 = W main_arg0
    ∧ after seg1 W main_arg4 = W main_arg4
    ∧ after seg1 W main_arg5 = W main_arg5
    ∧ after seg1 W main_arg6 = W main_arg6
    ∧ after seg1 W main_arg7 = W main_arg7 := by
  refine ⟨?_, ?_, ?_, ?_, ?_, ?_, ?_, ?_, ?_⟩ <;> after_results

/-! ### Operations 17 … 30 -/

theorem seg2_gate (hn : W main_v12 = Terms.negSqT (Terms.fusedT a0 a1) a2 a3) :
    after seg2 W main_v23 = Terms.retrievalGateT a0 a1 a2 a3 := by
  after_results; rw [hn]; rfl
theorem seg2_keep :
    after seg2 W main_cst = W main_cst
    ∧ after seg2 W main_cst_0 = W main_cst_0
    ∧ after seg2 W main_v0 = W main_v0
    ∧ after seg2 W main_v2 = W main_v2
    ∧ after seg2 W main_arg0 = W main_arg0
    ∧ after seg2 W main_arg4 = W main_arg4
    ∧ after seg2 W main_arg5 = W main_arg5
    ∧ after seg2 W main_arg6 = W main_arg6
    ∧ after seg2 W main_arg7 = W main_arg7 := by
  refine ⟨?_, ?_, ?_, ?_, ?_, ?_, ?_, ?_, ?_⟩ <;> after_results

/-! ### Operations 31 … 40 -/

theorem seg3_signal (hg : W main_v23 = Terms.retrievalGateT a0 a1 a2 a3) (hs : W main_v0 = Terms.stateT a1)
    (h0 : W main_arg0 = a0) (h6 : W main_arg6 = a6) (h7 : W main_arg7 = a7) :
    after seg3 W main_v32
      = broadcastInDim S8192x512x1 ![0, 1] bcast_S8192x512_S8192x512x1_0_1 (Terms.signalT a0 a1 a2 a3 a6 a7) := by
  after_results; rw [hg, hs, h0, h6, h7]; rfl
theorem seg3_keep :
    after seg3 W main_cst = W main_cst
    ∧ after seg3 W main_cst_0 = W main_cst_0
    ∧ after seg3 W main_v0 = W main_v0
    ∧ after seg3 W main_v2 = W main_v2
    ∧ after seg3 W main_arg4 = W main_arg4
    ∧ after seg3 W main_arg5 = W main_arg5 := by
  refine ⟨?_, ?_, ?_, ?_, ?_, ?_⟩ <;> after_results

/-! ### Operations 41 … 50 -/

theorem seg4_negSq (hf : W main_v2 = Terms.fusedT a0 a1) (h4 : W main_arg4 = a4) (h5 : W main_arg5 = a5)
    (ht : W main_cst = (Terms.tauT : FVec F S8 .f32)) :
    after seg4 W main_v42 = Terms.negSqT (Terms.fusedT a0 a1) a4 a5 := by
  after_results; rw [hf, h4, h5, ht]; rfl
theorem seg4_keep :
    after seg4 W main_cst_0 = W main_cst_0
    ∧ after seg4 W main_v0 = W main_v0
    ∧ after seg4 W main_v32 = W main_v32 := by
  refine ⟨?_, ?_, ?_⟩ <;> after_results

/-! ### Operations 51 … 64 -/

theorem seg5_gate (hn : W main_v42 = Terms.negSqT (Terms.fusedT a0 a1) a4 a5) :
    after seg5 W main_v53 = Terms.storageGateT a0 a1 a4 a5 := by
  after_results; rw [hn]; rfl
theorem seg5_keep :
    after seg5 W main_cst_0 = W main_cst_0
    ∧ after seg5 W main_v0 = W main_v0
    ∧ after seg5 W main_v32 = W main_v32 := by
  refine ⟨?_, ?_, ?_⟩ <;> after_results

/-! ### Operations 65 … 77 -/

theorem seg6_next (hg : W main_v53 = Terms.storageGateT a0 a1 a4 a5) (hs : W main_v0 = Terms.stateT a1)
    (hv : W main_v32 = broadcastInDim S8192x512x1 ![0, 1] bcast_S8192x512_S8192x512x1_0_1 (Terms.signalT a0 a1 a2 a3 a6 a7))
    (hd : W main_cst_0 = (Terms.decayT : FVec F S8 .f32)) :
    after seg6 W main_v63 = Terms.out0 a0 a1 a2 a3 a4 a5 a6 a7
    ∧ after seg6 W main_v64 = Terms.out1 a0 a1 a2 a3 a4 a5 a6 a7 := by
  constructor
  · after_results; rw [hg, hs, hv, hd]; rfl
  · after_results; rw [hg, hs, hv, hd]; rfl

end Stretches

/-! ## The whole line -/

/-- The two result buffers after all 77 operations, from any contents `V`: the named results of the arguments' contents. -/
theorem after_ops (V : Valuation τ sig (Elt F)) :
    after ops V main_v63 = Terms.out0 (V main_arg0) (V main_arg1) (V main_arg2) (V main_arg3) (V main_arg4) (V main_arg5) (V main_arg6) (V main_arg7)
    ∧ after ops V main_v64 = Terms.out1 (V main_arg0) (V main_arg1) (V main_arg2) (V main_arg3) (V main_arg4) (V main_arg5) (V main_arg6) (V main_arg7) := by
  have e : after (ops (F := F)) V = (after seg6 (after seg5 (after seg4 (after seg3 (after seg2 (after seg1 (after seg0 V))))))) := by
    simp only [ops, after_append]
  rw [e]
  -- after operations 1 … 6
  obtain ⟨k1_0, k1_2, k1_3, k1_4, k1_5, k1_6, k1_7⟩ := seg0_keep V
  have t1 := seg0_tau V
  have d1 := seg0_decay V
  have s1 := seg0_state V (h1 := rfl)
  have f1 := seg0_fused V (h0 := rfl) (h1 := rfl)
  -- after operations 7 … 16
  obtain ⟨qt, qd, qs, qf, q0, q4, q5, q6, q7⟩ := seg1_keep (after seg0 V)
  have n2 := seg1_negSq (after seg0 V) f1 k1_2 k1_3 t1
  have t2 := qt.trans t1
  have d2 := qd.trans d1
  have s2 := qs.trans s1
  have f2 := qf.trans f1
  have k2_0 := q0.trans k1_0
  have k2_4 := q4.trans k1_4
  have k2_5 := q5.trans k1_5
  have k2_6 := q6.trans k1_6
  have k2_7 := q7.trans k1_7
  clear qt qd qs qf q0 q4 q5 q6 q7
  -- after operations 17 … 30
  obtain ⟨qt, qd, qs, qf, q0, q4, q5, q6, q7⟩ := seg2_keep (after seg1 (after seg0 V))
  have g3 := seg2_gate (after seg1 (after seg0 V)) n2
  have t3 := qt.trans t2
  have d3 := qd.trans d2
  have s3 := qs.trans s2
  have f3 := qf.trans f2
  have k3_0 := q0.trans k2_0
  have k3_4 := q4.trans k2_4
  have k3_5 := q5.trans k2_5
  have k3_6 := q6.trans k2_6
  have k3_7 := q7.trans k2_7
  clear qt qd qs qf q0 q4 q5 q6 q7
  -- after operations 31 … 40
  obtain ⟨qt, qd, qs, qf, q4, q5⟩ := seg3_keep (after seg2 (after seg1 (after seg0 V)))
  have v4 := seg3_signal (after seg2 (after seg1 (after seg0 V))) g3 s3 k3_0 k3_6 k3_7
  have t4 := qt.trans t3
  have d4 := qd.trans d3
  have s4 := qs.trans s3
  have f4 := qf.trans f3
  have k4_4 := q4.trans k3_4
  have k4_5 := q5.trans k3_5
  clear qt qd qs qf q4 q5
  -- after operations 41 … 50
  obtain ⟨qd, qs, qv⟩ := seg4_keep (after seg3 (after seg2 (after seg1 (after seg0 V))))
  have n5 := seg4_negSq (after seg3 (after seg2 (after seg1 (after seg0 V)))) f4 k4_4 k4_5 t4
  have d5 := qd.trans d4
  have s5 := qs.trans s4
  have v5 := qv.trans v4
  clear qd qs qv
  -- after operations 51 … 64
  obtain ⟨qd, qs, qv⟩ := seg5_keep (after seg4 (after seg3 (after seg2 (after seg1 (after seg0 V)))))
  have g6 := seg5_gate (after seg4 (after seg3 (after seg2 (after seg1 (after seg0 V))))) n5
  have d6 := qd.trans d5
  have s6 := qs.trans s5
  have v6 := qv.trans v5
  -- operations 65 … 77
  exact seg6_next (after seg5 (after seg4 (after seg3 (after seg2 (after seg1 (after seg0 V)))))) g6 s6 v6 d6

/-- A line of operations that leaves the eight arguments' buffers as they were, whatever the buffers held. -/
def KeepsArgs (l : List (HloOp τ sig (Elt F))) : Prop :=
  ∀ W : Valuation τ sig (Elt F),
    after l W main_arg0 = W main_arg0
    ∧ after l W main_arg1 = W main_arg1
    ∧ after l W main_arg2 = W main_arg2
    ∧ after l W main_arg3 = W main_arg3
    ∧ after l W main_arg4 = W main_arg4
    ∧ after l W main_arg5 = W main_arg5
    ∧ after l W main_arg6 = W main_arg6
    ∧ after l W main_arg7 = W main_arg7

/-- Two such lines one after the other are such a line. -/
theorem KeepsArgs.append {l₁ l₂ : List (HloOp τ sig (Elt F))} (h₁ : KeepsArgs l₁) (h₂ : KeepsArgs l₂) : KeepsArgs (l₁ ++ l₂) := by
  intro W
  obtain ⟨p0, p1, p2, p3, p4, p5, p6, p7⟩ := h₁ W
  obtain ⟨q0, q1, q2, q3, q4, q5, q6, q7⟩ := h₂ (after l₁ W)
  rw [after_append]
  exact ⟨q0.trans p0, q1.trans p1, q2.trans p2, q3.trans p3, q4.trans p4, q5.trans p5, q6.trans p6, q7.trans p7⟩

theorem seg0_args : KeepsArgs (seg0 (F := F)) := fun W => by
  refine ⟨?_, ?_, ?_, ?_, ?_, ?_, ?_, ?_⟩ <;> after_results
theorem seg1_args : KeepsArgs (seg1 (F := F)) := fun W => by
  refine ⟨?_, ?_, ?_, ?_, ?_, ?_, ?_, ?_⟩ <;> after_results
theorem seg2_args : KeepsArgs (seg2 (F := F)) := fun W => by
  refine ⟨?_, ?_, ?_, ?_, ?_, ?_, ?_, ?_⟩ <;> after_results
theorem seg3_args : KeepsArgs (seg3 (F := F)) := fun W => by
  refine ⟨?_, ?_, ?_, ?_, ?_, ?_, ?_, ?_⟩ <;> after_results
theorem seg4_args : KeepsArgs (seg4 (F := F)) := fun W => by
  refine ⟨?_, ?_, ?_, ?_, ?_, ?_, ?_, ?_⟩ <;> after_results
theorem seg5_args : KeepsArgs (seg5 (F := F)) := fun W => by
  refine ⟨?_, ?_, ?_, ?_, ?_, ?_, ?_, ?_⟩ <;> after_results
theorem seg6_args : KeepsArgs (seg6 (F := F)) := fun W => by
  refine ⟨?_, ?_, ?_, ?_, ?_, ?_, ?_, ?_⟩ <;> after_results

/-- No operation writes an argument's buffer. -/
theorem ops_keep : KeepsArgs (ops (F := F)) :=
  seg0_args.append (seg1_args.append (seg2_args.append (seg3_args.append (seg4_args.append (seg5_args.append seg6_args)))))

/-! ## The run -/

/-- On every device, for any float values, from any memory with zero counters: every weakly fair execution of
    @main terminates with the two result buffers at the named results of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = Terms.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v64) = Terms.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      have hv := after_ops (launchContents m c)
      have ha := ops_keep (launchContents m c)
      ⟨(h c main_v63).trans hv.1, (h c main_v64).trans hv.2,
        (h c main_arg0).trans ha.1, (h c main_arg1).trans ha.2.1, (h c main_arg2).trans ha.2.2.1,
        (h c main_arg3).trans ha.2.2.2.1, (h c main_arg4).trans ha.2.2.2.2.1, (h c main_arg5).trans ha.2.2.2.2.2.1,
        (h c main_arg6).trans ha.2.2.2.2.2.2.1, (h c main_arg7).trans ha.2.2.2.2.2.2.2⟩)
    (run_seq scopedRefs_eq scopedSems_eq defs main (fun _ => ops) main_eq (fun _ => ops_sub) m ρ)

end Cert.ReferenceIdeal.HandRun

end
-- ==== Proof.RefRows.lean ====
/-
  The reference's terms read row by row.  Each intermediate value of the reference, read at explicit coordinates
  (batch row `b`, unit `u`, bucket `k`), is the corresponding function of the row step applied to row `b` of the
  inputs and of the state: the reshape of the state puts bucket `k` of unit `u` at column `8 u + k`; a reduction
  along the bucket axis is the sum (or the maximum) over the eight buckets; the concatenation is the row of 768; a
  `dot_general` with one contracted axis is the sum over the 768 columns of the row; the broadcasts repeat a table
  along the bucket axis or a per-unit value across it.  Over the extended reals every operation is exact, so the
  two sides agree term by term, with no hypothesis on the inputs.
-/
import proofs.«135037_j19593640804384_1_alg».proof.Proof.RefTerms
import proofs.«135037_j19593640804384_1_alg».proof.Proof.RowArrays
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

open scoped BigOperators

namespace Cert.ReferenceIdeal.Rows

open Cert.ReferenceIdeal Cert.ReferenceIdeal.Gen Cert.ReferenceIdeal.Terms Cert.RowStep Idealize.ShloMosaic
  Idealize.ShloMosaic.ValueIdx

/-- The eight time constants as extended reals. -/
def tauR : Fin 8 → EReal := fun k => Terms.tauT (F := Ideal) (ix1 k)
/-- The eight decay factors as extended reals. -/
def decayR : Fin 8 → EReal := fun k => Terms.decayT (F := Ideal) (ix1 k)

/-! ## The layout operations at coordinates -/

/-- The state with its bucket axis split off reads bucket `k` of unit `u` at column `8 u + k`. -/
theorem stateT_apply (a1 : FVec Ideal S8192x4096 .f32) (b : Fin 8192) (u : Fin 512) (k : Fin 8) :
    stateT (F := Ideal) a1 (ix3 b u k) = a1 (ix2 b (slot u k)) := by
  unfold stateT
  refine shapeCast_apply a1 _ (ix3 b u k) (ix2 b (slot u k)) ?_
  rw [Shape.rowMajor_val_two, Shape.rowMajor_val_three]
  show b.val * 4096 + (8 * u.val + k.val) = (b.val * 512 + u.val) * 8 + k.val
  omega

/-- The reduction's shape fact in the form that names the inserted index. -/
theorem reduces_d2 : Shape.Reduces S8192x512x8 [2] S8192x512 := by decide

/-- The index over `(b, u)` with bucket `k` inserted on the last axis. -/
theorem lift_d2 (b : Fin 8192) (u : Fin 512) (k : Fin 8) : reduces_d2.lift (ix2 b u) k = ix3 b u k := by
  funext c
  match c with
  | ⟨0, _⟩ => rfl
  | ⟨1, _⟩ => rfl
  | ⟨2, _⟩ => rfl

/-- The sum along the bucket axis is the sum over the eight buckets. -/
theorem sumBuckets_apply (v : FVec Ideal S8192x512x8 .f32) (b : Fin 8192) (u : Fin 512) :
    sumBuckets (F := Ideal) v (ix2 b u) = ∑ k : Fin 8, v (ix3 b u k) := by
  unfold sumBuckets
  rw [hostReduceAdd_apply, Ideal.hostReduceAdd_single _ reduces_d2, constant_apply, Ideal.ofBits_zero_f32, zero_add]
  exact Finset.sum_congr rfl fun k _ => congrArg v (lift_d2 b u k)

/-- The concatenation along the columns is the row of 768. -/
theorem joinT_apply (a0 : FVec Ideal S8192x256 .f32) (v : FVec Ideal S8192x512 .f32) (b : Fin 8192) (j : Fin 768) :
    joinT (F := Ideal) a0 v (ix2 b j) = joined (fun j => a0 (ix2 b j)) (fun u => v (ix2 b u)) j := by
  unfold joinT joined
  by_cases hj : j.val < 256
  · rw [dif_pos hj]
    refine concatenate_pair_apply_left _ a0 v _ (ix2 b j) rfl (ix2 b ⟨j.val, hj⟩) ?_
    intro c
    match c with
    | ⟨0, _⟩ => rfl
    | ⟨1, _⟩ => rfl
  · rw [dif_neg hj]
    refine concatenate_pair_apply_right _ a0 v _ (ix2 b j) rfl rfl (ix2 b ⟨j.val - 256, by omega⟩) ?_ ?_
    · intro c hc
      match c, hc with
      | ⟨0, _⟩, _ => rfl
      | ⟨1, _⟩, hc => exact absurd rfl hc
    · show (j.val - 256) + 256 = j.val
      omega

/-- The inputs followed by the units' totals. -/
theorem fusedT_apply (a0 : FVec Ideal S8192x256 .f32) (a1 : FVec Ideal S8192x4096 .f32) (b : Fin 8192) (j : Fin 768) :
    fusedT (F := Ideal) a0 a1 (ix2 b j) = fused (inRow a0 b) (stRow a1 b) j := by
  unfold fusedT fused
  rw [joinT_apply]
  refine congrArg (fun h => joined (inRow a0 b) h j) (funext fun u => ?_)
  rw [sumBuckets_apply]
  exact Finset.sum_congr rfl fun k _ => stateT_apply a1 b u k

/-- A table of eight laid along the bucket axis. -/
theorem alongBuckets_apply (t : FVec Ideal S8 .f32) (b : Fin 8192) (u : Fin 512) (k : Fin 8) :
    alongBuckets (F := Ideal) t (ix3 b u k) = t (ix1 k) := by
  unfold alongBuckets
  rw [broadcastInDim_apply _ _ _ (ix3 b u k) (ix3 (0 : Fin 1) (0 : Fin 1) k) (by
    intro a
    match a with
    | ⟨0, _⟩ => rfl
    | ⟨1, _⟩ => rfl
    | ⟨2, _⟩ => rfl)]
  exact broadcastInDim_apply _ _ _ (ix3 (0 : Fin 1) (0 : Fin 1) k) (ix1 k) (by
    intro a
    match a with
    | ⟨0, _⟩ => rfl)

/-- A per-(row, unit) value repeated across the bucket axis. -/
theorem acrossBuckets_apply (v : FVec Ideal S8192x512 .f32) (b : Fin 8192) (u : Fin 512) (k : Fin 8) :
    acrossBuckets (F := Ideal) v (ix3 b u k) = v (ix2 b u) := by
  unfold acrossBuckets
  rw [broadcastInDim_apply _ _ _ (ix3 b u k) (ix3 b u (0 : Fin 1)) (by
    intro a
    match a with
    | ⟨0, _⟩ => rfl
    | ⟨1, _⟩ => rfl
    | ⟨2, _⟩ => rfl)]
  exact broadcastInDim_apply _ _ _ (ix3 b u (0 : Fin 1)) (ix2 b u) (by
    intro a
    match a with
    | ⟨0, _⟩ => rfl
    | ⟨1, _⟩ => rfl)

/-! ## The two contractions: a one-axis `dot_general` is the sum over the 768 columns of the row -/

theorem lhs4096_0 (j : S8192x4096.Idx) (k : dot_S8192x768_S768x4096_S8192x4096_1_0_0_1_n_n.contr.Idx) :
    (dot_S8192x768_S768x4096_S8192x4096_1_0_0_1_n_n.lhsIdx j k 0 : ℕ) = j 0 := by
  simp [DotDims.lhsIdx, dot_S8192x768_S768x4096_S8192x4096_1_0_0_1_n_n]; rfl
theorem lhs4096_1 (j : S8192x4096.Idx) (k : dot_S8192x768_S768x4096_S8192x4096_1_0_0_1_n_n.contr.Idx) :
    (dot_S8192x768_S768x4096_S8192x4096_1_0_0_1_n_n.lhsIdx j k 1 : ℕ) = k ⟨0, by decide⟩ := by
  simp [DotDims.lhsIdx, dot_S8192x768_S768x4096_S8192x4096_1_0_0_1_n_n]; rfl
theorem rhs4096_0 (j : S8192x4096.Idx) (k : dot_S8192x768_S768x4096_S8192x4096_1_0_0_1_n_n.contr.Idx) :
    (dot_S8192x768_S768x4096_S8192x4096_1_0_0_1_n_n.rhsIdx j k 0 : ℕ) = k ⟨0, by decide⟩ := by
  simp [DotDims.rhsIdx, dot_S8192x768_S768x4096_S8192x4096_1_0_0_1_n_n]; rfl
theorem rhs4096_1 (j : S8192x4096.Idx) (k : dot_S8192x768_S768x4096_S8192x4096_1_0_0_1_n_n.contr.Idx) :
    (dot_S8192x768_S768x4096_S8192x4096_1_0_0_1_n_n.rhsIdx j k 1 : ℕ) = j 1 := by
  simp [DotDims.rhsIdx, dot_S8192x768_S768x4096_S8192x4096_1_0_0_1_n_n]; rfl

/-- Rows of 768 times a 768 × 4096 matrix, at row `b` and column `c`. -/
theorem dot4096_apply (v : FVec Ideal S8192x768 .f32) (W : FVec Ideal S768x4096 .f32) (b : Fin 8192) (c : Fin 4096) :
    Host.dotGeneral (F := Ideal) dot_S8192x768_S768x4096_S8192x4096_1_0_0_1_n_n none v W (ix2 b c)
      = ∑ j : Fin 768, v (ix2 b j) * W (ix2 j c) := by
  simp only [Host.dotGeneral]
  rw [Ideal.dotGeneral_apply,
    ← Equiv.sum_comp (contrEquiv1 dot_S8192x768_S768x4096_S8192x4096_1_0_0_1_n_n 768 rfl rfl).symm]
  refine Finset.sum_congr rfl fun j _ => ?_
  have hl : dot_S8192x768_S768x4096_S8192x4096_1_0_0_1_n_n.lhsIdx (ix2 b c)
      ((contrEquiv1 dot_S8192x768_S768x4096_S8192x4096_1_0_0_1_n_n 768 rfl rfl).symm j) = ix2 b j := by
    funext a
    match a with
    | ⟨0, _⟩ => exact Fin.ext (lhs4096_0 _ _)
    | ⟨1, _⟩ => exact Fin.ext ((lhs4096_1 _ _).trans (contrEquiv1_symm_val _ 768 rfl rfl j))
  have hr : dot_S8192x768_S768x4096_S8192x4096_1_0_0_1_n_n.rhsIdx (ix2 b c)
      ((contrEquiv1 dot_S8192x768_S768x4096_S8192x4096_1_0_0_1_n_n 768 rfl rfl).symm j) = ix2 j c := by
    funext a
    match a with
    | ⟨0, _⟩ => exact Fin.ext ((rhs4096_0 _ _).trans (contrEquiv1_symm_val _ 768 rfl rfl j))
    | ⟨1, _⟩ => exact Fin.ext (rhs4096_1 _ _)
  rw [hl, hr]

theorem lhs512_0 (j : S8192x512.Idx) (k : dot_S8192x768_S768x512_S8192x512_1_0_0_1_n_n.contr.Idx) :
    (dot_S8192x768_S768x512_S8192x512_1_0_0_1_n_n.lhsIdx j k 0 : ℕ) = j 0 := by
  simp [DotDims.lhsIdx, dot_S8192x768_S768x512_S8192x512_1_0_0_1_n_n]; rfl
theorem lhs512_1 (j : S8192x512.Idx) (k : dot_S8192x768_S768x512_S8192x512_1_0_0_1_n_n.contr.Idx) :
    (dot_S8192x768_S768x512_S8192x512_1_0_0_1_n_n.lhsIdx j k 1 : ℕ) = k ⟨0, by decide⟩ := by
  simp [DotDims.lhsIdx, dot_S8192x768_S768x512_S8192x512_1_0_0_1_n_n]; rfl
theorem rhs512_0 (j : S8192x512.Idx) (k : dot_S8192x768_S768x512_S8192x512_1_0_0_1_n_n.contr.Idx) :
    (dot_S8192x768_S768x512_S8192x512_1_0_0_1_n_n.rhsIdx j k 0 : ℕ) = k ⟨0, by decide⟩ := by
  simp [DotDims.rhsIdx, dot_S8192x768_S768x512_S8192x512_1_0_0_1_n_n]; rfl
theorem rhs512_1 (j : S8192x512.Idx) (k : dot_S8192x768_S768x512_S8192x512_1_0_0_1_n_n.contr.Idx) :
    (dot_S8192x768_S768x512_S8192x512_1_0_0_1_n_n.rhsIdx j k 1 : ℕ) = j 1 := by
  simp [DotDims.rhsIdx, dot_S8192x768_S768x512_S8192x512_1_0_0_1_n_n]; rfl

/-- Rows of 768 times a 768 × 512 matrix, at row `b` and column `c`. -/
theorem dot512_apply (v : FVec Ideal S8192x768 .f32) (W : FVec Ideal S768x512 .f32) (b : Fin 8192) (c : Fin 512) :
    Host.dotGeneral (F := Ideal) dot_S8192x768_S768x512_S8192x512_1_0_0_1_n_n none v W (ix2 b c)
      = ∑ j : Fin 768, v (ix2 b j) * W (ix2 j c) := by
  simp only [Host.dotGeneral]
  rw [Ideal.dotGeneral_apply,
    ← Equiv.sum_comp (contrEquiv1 dot_S8192x768_S768x512_S8192x512_1_0_0_1_n_n 768 rfl rfl).symm]
  refine Finset.sum_congr rfl fun j _ => ?_
  have hl : dot_S8192x768_S768x512_S8192x512_1_0_0_1_n_n.lhsIdx (ix2 b c)
      ((contrEquiv1 dot_S8192x768_S768x512_S8192x512_1_0_0_1_n_n 768 rfl rfl).symm j) = ix2 b j := by
    funext a
    match a with
    | ⟨0, _⟩ => exact Fin.ext (lhs512_0 _ _)
    | ⟨1, _⟩ => exact Fin.ext ((lhs512_1 _ _).trans (contrEquiv1_symm_val _ 768 rfl rfl j))
  have hr : dot_S8192x768_S768x512_S8192x512_1_0_0_1_n_n.rhsIdx (ix2 b c)
      ((contrEquiv1 dot_S8192x768_S768x512_S8192x512_1_0_0_1_n_n 768 rfl rfl).symm j) = ix2 j c := by
    funext a
    match a with
    | ⟨0, _⟩ => exact Fin.ext ((rhs512_0 _ _).trans (contrEquiv1_symm_val _ 768 rfl rfl j))
    | ⟨1, _⟩ => exact Fin.ext (rhs512_1 _ _)
  rw [hl, hr]

/-- A bias laid along every row, 4096 columns. -/
theorem bias4096_apply (bias : FVec Ideal S4096 .f32) (b : Fin 8192) (c : Fin 4096) :
    broadcastInDim S8192x4096 ![0, 1] bcast_S1x4096_S8192x4096_0_1 (broadcastInDim S1x4096 ![1] bcast_S4096_S1x4096_1 bias)
      (ix2 b c) = bias (ix1 c) := by
  rw [broadcastInDim_apply _ _ _ (ix2 b c) (ix2 (0 : Fin 1) c) (by
    intro a
    match a with
    | ⟨0, _⟩ => rfl
    | ⟨1, _⟩ => rfl)]
  exact broadcastInDim_apply _ _ _ (ix2 (0 : Fin 1) c) (ix1 c) (by
    intro a
    match a with
    | ⟨0, _⟩ => rfl)

/-- A bias laid along every row, 512 columns. -/
theorem bias512_apply (bias : FVec Ideal S512 .f32) (b : Fin 8192) (c : Fin 512) :
    broadcastInDim S8192x512 ![0, 1] bcast_S1x512_S8192x512_0_1 (broadcastInDim S1x512 ![1] bcast_S512_S1x512_1 bias)
      (ix2 b c) = bias (ix1 c) := by
  rw [broadcastInDim_apply _ _ _ (ix2 b c) (ix2 (0 : Fin 1) c) (by
    intro a
    match a with
    | ⟨0, _⟩ => rfl
    | ⟨1, _⟩ => rfl)]
  exact broadcastInDim_apply _ _ _ (ix2 (0 : Fin 1) c) (ix1 c) (by
    intro a
    match a with
    | ⟨0, _⟩ => rfl)

/-- The affine image with the bucket axis split off, read at unit `u` and bucket `k`: column `8 u + k`. -/
theorem affine4096T_apply (v : FVec Ideal S8192x768 .f32) (W : FVec Ideal S768x4096 .f32) (bias : FVec Ideal S4096 .f32)
    (b : Fin 8192) (u : Fin 512) (k : Fin 8) :
    affine4096T (F := Ideal) v W bias (ix3 b u k) = affine (fun j => v (ix2 b j)) (mat W) (vec bias) (slot u k) := by
  unfold affine4096T
  rw [shapeCast_apply _ _ (ix3 b u k) (ix2 b (slot u k)) (by
    rw [Shape.rowMajor_val_two, Shape.rowMajor_val_three]
    show b.val * 4096 + (8 * u.val + k.val) = (b.val * 512 + u.val) * 8 + k.val
    omega)]
  rw [addf_apply, dot4096_apply, bias4096_apply]
  rfl

/-! ## The elementwise host operations at an index -/

theorem hostNegf_apply {s : Shape} (x : FVec Ideal s .f32) (i : s.Idx) : Host.negf x i = -(x i) := rfl
theorem hostExp_apply {s : Shape} (x : FVec Ideal s .f32) (i : s.Idx) : Host.exp x i = Ideal.exp (x i) := rfl
theorem hostTanh_apply {s : Shape} (x : FVec Ideal s .f32) (i : s.Idx) : Host.tanh x i = Ideal.tanh (x i) := rfl

/-! ## The gates -/

/-- The distance of the affine image from the time constants. -/
theorem centeredT_apply (v : FVec Ideal S8192x768 .f32) (W : FVec Ideal S768x4096 .f32) (bias : FVec Ideal S4096 .f32)
    (b : Fin 8192) (u : Fin 512) (k : Fin 8) :
    centeredT (F := Ideal) v W bias (ix3 b u k)
      = affine (fun j => v (ix2 b j)) (mat W) (vec bias) (slot u k) - tauR k := by
  unfold centeredT
  rw [subf_apply, affine4096T_apply, alongBuckets_apply]
  rfl

/-- The negated squared distance. -/
theorem negSqT_apply (v : FVec Ideal S8192x768 .f32) (W : FVec Ideal S768x4096 .f32) (bias : FVec Ideal S4096 .f32)
    (b : Fin 8192) (u : Fin 512) (k : Fin 8) :
    negSqT (F := Ideal) v W bias (ix3 b u k)
      = negSq tauR (fun k' => affine (fun j => v (ix2 b j)) (mat W) (vec bias) (slot u k')) k := by
  unfold negSqT negSq
  rw [hostNegf_apply, mulf_apply, centeredT_apply]

/-- The peak along the bucket axis: the largest of the eight values, floored at `-∞`. -/
theorem peakT_apply (a : FVec Ideal S8192x512x8 .f32) (b : Fin 8192) (u : Fin 512) :
    peakT (F := Ideal) a (ix2 b u) = peak (fun k => a (ix3 b u k)) := by
  unfold peakT peak
  rw [maximumf_apply, broadcastInDim_scalar_apply, constant_apply,
    Host.reduce_eq_fold_single FloatOps.maximumf a _ reducesTo_S8192x512x8_S8192x512_d2 reduces_d2 h_S_, constant_apply]
  have hl : (a ∘ reduces_d2.lift (ix2 b u)) = fun k => a (ix3 b u k) := funext fun k => congrArg a (lift_d2 b u k)
  rw [hl]
  rfl

/-- The exponentials of the distances from the peak. -/
theorem expT_apply (a : FVec Ideal S8192x512x8 .f32) (b : Fin 8192) (u : Fin 512) (k : Fin 8) :
    expT (F := Ideal) a (ix3 b u k) = Ideal.exp (a (ix3 b u k) - peak (fun k' => a (ix3 b u k'))) := by
  unfold expT
  rw [hostExp_apply, subf_apply, acrossBuckets_apply, peakT_apply]

/-- The softmax along the bucket axis. -/
theorem softmaxT_apply (a : FVec Ideal S8192x512x8 .f32) (b : Fin 8192) (u : Fin 512) (k : Fin 8) :
    softmaxT (F := Ideal) a (ix3 b u k) = softmax8 (fun k' => a (ix3 b u k')) k := by
  unfold softmaxT softmax8
  rw [hostDivf_apply, acrossBuckets_apply, sumBuckets_apply, expT_apply]
  exact congrArg (Ideal.div _) (Finset.sum_congr rfl fun k' _ => expT_apply a b u k')

/-- A gate of the reference is the gate of the row step on the fused row. -/
theorem gateT_apply (a0 : FVec Ideal S8192x256 .f32) (a1 : FVec Ideal S8192x4096 .f32) (W : FVec Ideal S768x4096 .f32)
    (bias : FVec Ideal S4096 .f32) (b : Fin 8192) (u : Fin 512) (k : Fin 8) :
    softmaxT (F := Ideal) (negSqT (fusedT a0 a1) W bias) (ix3 b u k)
      = gate tauR (fused (inRow a0 b) (stRow a1 b)) (mat W) (vec bias) u k := by
  unfold gate
  rw [softmaxT_apply]
  refine congrArg (fun f => softmax8 f k) (funext fun k' => ?_)
  rw [negSqT_apply]
  have hf : (fun j => fusedT (F := Ideal) a0 a1 (ix2 b j)) = fused (inRow a0 b) (stRow a1 b) :=
    funext fun j => fusedT_apply a0 a1 b j
  rw [hf]

/-! ## The retrieved values, the signals, and the new state -/

section Args

variable (a0 : FVec Ideal S8192x256 .f32) (a1 : FVec Ideal S8192x4096 .f32) (a2 : FVec Ideal S768x4096 .f32)
  (a3 : FVec Ideal S4096 .f32) (a4 : FVec Ideal S768x4096 .f32) (a5 : FVec Ideal S4096 .f32)
  (a6 : FVec Ideal S768x512 .f32) (a7 : FVec Ideal S512 .f32)

/-- The retrieved value of a unit: its buckets weighted by the retrieval gate. -/
theorem retrievedT_apply (b : Fin 8192) (u : Fin 512) :
    retrievedT (F := Ideal) a0 a1 a2 a3 (ix2 b u)
      = retrieved (inRow a0 b) (stRow a1 b) (mat a2) (vec a3) tauR u := by
  unfold retrievedT retrieved
  rw [sumBuckets_apply]
  refine Finset.sum_congr rfl fun k _ => ?_
  rw [mulf_apply, stateT_apply]
  unfold retrievalGateT
  rw [gateT_apply]
  rfl

/-- The detected signal of a unit. -/
theorem signalT_apply (b : Fin 8192) (u : Fin 512) :
    signalT (F := Ideal) a0 a1 a2 a3 a6 a7 (ix2 b u)
      = signal (inRow a0 b) (stRow a1 b) (mat a2) (vec a3) (mat a6) (vec a7) tauR u := by
  unfold signalT signal
  rw [hostTanh_apply, addf_apply, dot512_apply, bias512_apply]
  refine congrArg Ideal.tanh ?_
  unfold affine
  refine congrArg (fun t => t + vec a7 u) (Finset.sum_congr rfl fun j _ => ?_)
  rw [joinT_apply]
  exact congrArg (fun h => joined (inRow a0 b) h j * mat a6 j u)
    (funext fun u' => retrievedT_apply a0 a1 a2 a3 b u')

/-- The new value of bucket `k` of unit `u` in row `b`. -/
theorem nextT_apply (b : Fin 8192) (u : Fin 512) (k : Fin 8) :
    nextT (F := Ideal) a0 a1 a2 a3 a4 a5 a6 a7 (ix3 b u k) = nextRow a0 a1 a2 a3 a4 a5 a6 a7 tauR decayR b u k := by
  unfold nextT nextRow next
  rw [mulf_apply, addf_apply, mulf_apply, mulf_apply, subf_apply, broadcastInDim_scalar_apply, constant_apply,
    alongBuckets_apply, acrossBuckets_apply, signalT_apply, stateT_apply]
  unfold storageGateT
  rw [gateT_apply]
  rfl

/-- The new total of unit `u` in row `b`. -/
theorem out0_apply (b : Fin 8192) (u : Fin 512) :
    out0 (F := Ideal) a0 a1 a2 a3 a4 a5 a6 a7 (ix2 b u) = nextSumRow a0 a1 a2 a3 a4 a5 a6 a7 tauR decayR b u := by
  unfold out0 nextSumRow nextSum
  rw [sumBuckets_apply]
  exact Finset.sum_congr rfl fun k _ => nextT_apply a0 a1 a2 a3 a4 a5 a6 a7 b u k

/-- THE NEW BUCKET VALUES of the reference are the row step applied row by row. -/
theorem nextT_eq :
    Terms.nextT (F := Ideal) a0 a1 a2 a3 a4 a5 a6 a7 = Cert.RowStep.nextArr a0 a1 a2 a3 a4 a5 a6 a7 tauR decayR := by
  funext i
  obtain ⟨b, u, k, rfl⟩ : ∃ (b : Fin 8192) (u : Fin 512) (k : Fin 8), i = ix3 b u k := ⟨i 0, i 1, i 2, eq_ix3 i⟩
  rw [nextArr_apply]
  exact nextT_apply a0 a1 a2 a3 a4 a5 a6 a7 b u k

/-- THE NEW UNIT TOTALS of the reference are the row step's totals row by row. -/
theorem out0_eq :
    Terms.out0 (F := Ideal) a0 a1 a2 a3 a4 a5 a6 a7 = Cert.RowStep.nextSumArr a0 a1 a2 a3 a4 a5 a6 a7 tauR decayR := by
  funext i
  obtain ⟨b, u, rfl⟩ : ∃ (b : Fin 8192) (u : Fin 512), i = ix2 b u := ⟨i 0, i 1, eq_ix2 i⟩
  rw [nextSumArr_apply]
  exact out0_apply a0 a1 a2 a3 a4 a5 a6 a7 b u

end Args

end Cert.ReferenceIdeal.Rows

end
-- ==== Proof.lean ====
/-
  The kernel computes, block of 128 batch rows by block, one step of a gated recurrent cell with eight time-constant
  buckets per unit; the reference computes the same step on whole arrays.  Both are the row step of
  `Proof/RowStep.lean` applied to every batch row: the kernel because grid point `t` stages rows `128 t … 128 t + 127` of
  the inputs and of the state beside the whole weights and tables, and its body's arithmetic read at (row, unit, bucket)
  is the row step of that row; the reference because each of its whole-array operations acts row by row.  On the extended
  reals a change of float format is the identity, a matrix product is the sum over the contracted index on both sides, a
  lane sum and a host sum are the same finite sum, and `0 - y = -y`; the two programs carry the same sixteen literal
  words for the time constants and the decay factors.  So no law that needs finiteness is used, and the precondition is
  never opened.

  The frames of the two kernel programs are the generated ones; the reference's frame is its run with the results
  dropped; the idealization rewrote nothing, so there is nothing to preserve.
-/
import proofs.«135037_j19593640804384_1_alg».proof.Defs
import proofs.«135037_j19593640804384_1_alg».proof.Proof.Gen.Kernel
import proofs.«135037_j19593640804384_1_alg».proof.Proof.Gen.Kernel.Skeleton
import proofs.«135037_j19593640804384_1_alg».proof.Proof.Gen.Kernel.Launch
import proofs.«135037_j19593640804384_1_alg».proof.Proof.Gen.Kernel.Points
import proofs.«135037_j19593640804384_1_alg».proof.Proof.Gen.Kernel.Frame
import proofs.«135037_j19593640804384_1_alg».proof.Proof.Gen.KernelIdeal
import proofs.«135037_j19593640804384_1_alg».proof.Proof.Gen.KernelIdeal.Skeleton
import proofs.«135037_j19593640804384_1_alg».proof.Proof.Gen.KernelIdeal.Launch
import proofs.«135037_j19593640804384_1_alg».proof.Proof.Gen.KernelIdeal.Points
import proofs.«135037_j19593640804384_1_alg».proof.Proof.Gen.KernelIdeal.Frame
import proofs.«135037_j19593640804384_1_alg».proof.Proof.Gen.ReferenceIdeal
import proofs.«135037_j19593640804384_1_alg».proof.Proof.Gen.Pre_finite_inputs
import proofs.«135037_j19593640804384_1_alg».proof.Proof.KernelArrays
import proofs.«135037_j19593640804384_1_alg».proof.Proof.RefRun
import proofs.«135037_j19593640804384_1_alg».proof.Proof.RefRows
import Idealize.ShloMosaic.Adequacy
import Idealize.ShloMosaic.Init

noncomputable section

namespace Cert.Proof

open Idealize.ShloMosaic Idealize.SL.Sem Idealize.ShloMosaic.TcCoe

/-- The two programs' tables of time constants hold the same eight words. -/
theorem tau_eq : Cert.KernelIdeal.Blocks.tauK = Cert.ReferenceIdeal.Rows.tauR := by
  funext k
  rfl

/-- The two programs' tables of decay factors hold the same eight words. -/
theorem decay_eq : Cert.KernelIdeal.Blocks.decayK = Cert.ReferenceIdeal.Rows.decayR := by
  funext k
  rfl

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.HandRun.run (F := Ideal) m ρ)

/-- Both programs end with the row step of every batch row of arguments that agree. -/
theorem algebraic : Cert.algebraic_KernelIdeal_ReferenceIdeal := by
  intro m ρ m' ρ' _ hagree
  refine ⟨fun c => Cert.KernelIdeal.Arrays.newTotals m c,
    fun c => shapeCast Cert.KernelIdeal.S8192x4096 (Cert.KernelIdeal.Arrays.newBuckets m c) Cert.KernelIdeal.Gen.shapeCasts_S8192x512x8_S8192x4096,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.HandRun.run (F := Ideal) m' ρ')
  · obtain ⟨h0, h1, h2, h3, h4, h5, h6, h7⟩ := hagree c
    rw [Cert.ReferenceIdeal.Rows.out0_eq, h0, h1, h2, h3, h4, h5, h6, h7, ← tau_eq, ← decay_eq]
    rfl
  · obtain ⟨h0, h1, h2, h3, h4, h5, h6, h7⟩ := hagree c
    unfold Cert.ReferenceIdeal.Terms.out1
    rw [Cert.ReferenceIdeal.Rows.nextT_eq, h0, h1, h2, h3, h4, h5, h6, h7, ← tau_eq, ← decay_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
